-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x116 : Shape := ⟨2, ![50000, 116]⟩
abbrev S2x800000 : Shape := ⟨2, ![2, 800000]⟩
abbrev S800000x4 : Shape := ⟨2, ![800000, 4]⟩
abbrev S50000x1 : Shape := ⟨2, ![50000, 1]⟩
abbrev S50000 : Shape := ⟨1, ![50000]⟩
abbrev S256x12 : Shape := ⟨2, ![256, 12]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S50000x116 : S_.BroadcastsInDim S50000x116 (![] : Fin 0 → Fin S50000x116.rank)
  reducesTo_S50000x116_S_d0_1 : S50000x116.ReducesTo [0, 1] S_
  h_S_ : 0 < S_.numel
  bcast_S_S800000x4 : S_.BroadcastsInDim S800000x4 (![] : Fin 0 → Fin S800000x4.rank)
  reducesTo_S800000x4_S_d0_1 : S800000x4.ReducesTo [0, 1] S_
  bcast_S_S256x12 : S_.BroadcastsInDim S256x12 (![] : Fin 0 → Fin S256x12.rank)
  reducesTo_S256x12_S_d0_1 : S256x12.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_
  bcast_S_S50000x1 : S_.BroadcastsInDim S50000x1 (![] : Fin 0 → Fin S50000x1.rank)
  reducesTo_S50000x1_S_d0_1 : S50000x1.ReducesTo [0, 1] S_

variable [Facts]

def fn_part3 {F : FTy → Type} [FloatOps F] (main_arg3 : IVec S50000x1 32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_c_20 : IVec S_ 32 := constantI S_ 32 0#32
  let main_v54 : IVec S50000x1 32 := broadcastInDim S50000x1 ![] bcast_S_S50000x1 main_c_20
  let main_v55 : IVec S50000x1 1 := cmpi .sge main_arg3 main_v54
  let main_c_21 : IVec S_ 32 := constantI S_ 32 256#32
  let main_v56 : IVec S50000x1 32 := broadcastInDim S50000x1 ![] bcast_S_S50000x1 main_c_21
  let main_v57 : IVec S50000x1 1 := cmpi .slt main_arg3 main_v56
  let main_v58 : IVec S50000x1 1 := andi main_v55 main_v57
  let main_c_22 : IVec S_ 1 := constantI S_ 1 1#1
  let main_v59 : IVec S_ 1 := (fun x v => Host.reduce IntOp.andi x v reducesTo_S50000x1_S_d0_1 h_S_) main_v58 main_c_22
  let main_v60 : IVec S_ 1 := andi main_v53 main_v59
  main_v60

def fn_part2 {F : FTy → Type} [FloatOps F] (main_arg3 : IVec S50000x1 32) (main_arg10 : FVec F S128 .f32) (main_arg11 : FVec F S128x128 .f32) (main_arg12 : FVec F S10x128 .f32) (main_arg13 : FVec F S10 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S10x128 .f32 := Host.absf main_arg12
  let main_cst_16 : FVec F S_ .f32 := constant S_ .f32 0x7F800000#32
  let main_v45 : FVec F S10x128 .f32 := broadcastInDim S10x128 ![] bcast_S_S10x128 main_cst_16
  let main_v46 : IVec S10x128 1 := cmpf .olt main_v44 main_v45
  let main_c_17 : IVec S_ 1 := constantI S_ 1 1#1
  let main_v47 : IVec S_ 1 := (fun x v => Host.reduce IntOp.andi x v reducesTo_S10x128_S_d0_1 h_S_) main_v46 main_c_17
  let main_v48 : IVec S_ 1 := andi main_v43 main_v47
  let main_v49 : FVec F S10 .f32 := Host.absf main_arg13
  let main_cst_18 : FVec F S_ .f32 := constant S_ .f32 0x7F800000#32
  let main_v50 : FVec F S10 .f32 := broadcastInDim S10 ![] bcast_S_S10 main_cst_18
  fn_part3 (F := F) main_arg3 main_v48 main_v49 main_v50

def fn_part1 {F : FTy → Type} [FloatOps F] (main_arg3 : IVec S50000x1 32) (main_arg7 : FVec F S128 .f32) (main_arg8 : FVec F S128x128 .f32) (main_arg9 : FVec F S128x128 .f32) (main_arg10 : FVec F S128 .f32) (main_arg11 : FVec F S128x128 .f32) (main_arg12 : FVec F S10x128 .f32) (main_arg13 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg3 main_arg10 main_arg11 main_arg12 main_arg13 main_v33

def fn {F : FTy → Type} [FloatOps F] (main_arg0 : FVec F S50000x116 .f32) (main_arg1 : IVec S2x800000 32) (main_arg2 : FVec F S800000x4 .f32) (main_arg3 : IVec S50000x1 32) (main_arg4 : IVec S50000 32) (main_arg5 : FVec F S256x12 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S10x128 .f32) (main_arg13 : FVec F S10 .f32) : IVec S_ 1 :=
  let main_v0 : FVec F S50000x116 .f32 := Host.absf main_arg0
  let main_cst : FVec F S_ .f32 := constant S_ .f32 0x7F800000#32
  let main_v1 : FVec F S50000x116 .f32 := broadcastInDim S50000x116 ![] bcast_S_S50000x116 main_cst
  let main_v2 : IVec S50000x116 1 := cmpf .olt main_v0 main_v1
  let main_c : IVec S_ 1 := constantI S_ 1 1#1
  let main_v3 : IVec S_ 1 := (fun x v => Host.reduce IntOp.andi x v reducesTo_S50000x116_S_d0_1 h_S_) main_v2 main_c
  let main_v4 : FVec F S800000x4 .f32 := Host.absf main_arg2
  let main_cst_0 : FVec F S_ .f32 := constant S_ .f32 0x7F800000#32
  let main_v5 : FVec F S800000x4 .f32 := broadcastInDim S800000x4 ![] bcast_S_S800000x4 main_cst_0
  let main_v6 : IVec S800000x4 1 := cmpf .olt main_v4 main_v5
  let main_c_1 : IVec S_ 1 := constantI S_ 1 1#1
  let main_v7 : IVec S_ 1 := (fun x v => Host.reduce IntOp.andi x v reducesTo_S800000x4_S_d0_1 h_S_) main_v6 main_c_1
  let main_v8 : IVec S_ 1 := andi main_v3 main_v7
  let main_v9 : FVec F S256x12 .f32 := Host.absf main_arg5
  let main_cst_2 : FVec F S_ .f32 := constant S_ .f32 0x7F800000#32
  let main_v10 : FVec F S256x12 .f32 := broadcastInDim S256x12 ![] bcast_S_S256x12 main_cst_2
  let main_v11 : IVec S256x12 1 := cmpf .olt main_v9 main_v10
  let main_c_3 : IVec S_ 1 := constantI S_ 1 1#1
  let main_v12 : IVec S_ 1 := (fun x v => Host.reduce IntOp.andi x v reducesTo_S256x12_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg7 main_arg8 main_arg9 main_arg10 main_arg11 main_arg12 main_arg13 main_v13 main_v16
-- ==== Kernel.lean ====
abbrev S50000x116 : Shape := ⟨2, ![50000, 116]⟩
abbrev S2x800000 : Shape := ⟨2, ![2, 800000]⟩
abbrev S800000x4 : Shape := ⟨2, ![800000, 4]⟩
abbrev S50000x1 : Shape := ⟨2, ![50000, 1]⟩
abbrev S50000 : Shape := ⟨1, ![50000]⟩
abbrev S256x12 : Shape := ⟨2, ![256, 12]⟩
abbrev S128x128 : Shape := ⟨2, ![128, 128]⟩
abbrev S128 : Shape := ⟨1, ![128]⟩
abbrev S10x128 : Shape := ⟨2, ![10, 128]⟩
abbrev S10 : Shape := ⟨1, ![10]⟩
abbrev S50000x12 : Shape := ⟨2, ![50000, 12]⟩
abbrev S5000x1 : Shape := ⟨2, ![5000, 1]⟩
abbrev S5000x12 : Shape := ⟨2, ![5000, 12]⟩
abbrev S5000x256 : Shape := ⟨2, ![5000, 256]⟩
abbrev S50000x128 : Shape := ⟨2, ![50000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S128x10 : Shape := ⟨2, ![128, 10]⟩
abbrev S64x10 : Shape := ⟨2, ![64, 10]⟩
abbrev S1x10 : Shape := ⟨2, ![1, 10]⟩

abbrev nBuf : Space → Nat
  | .hbm => 84
  | .vmem => 27
  | .smem => 0
  | _ => 0

abbrev bufTy : (tb : Table) → Fin (tcTables nBuf tb) → BufTy
  | .hbm, ⟨0, _⟩ => ⟨S50000x116, .f32⟩
  | .hbm, ⟨1, _⟩ => ⟨S2x800000, .i32⟩
  | .hbm, ⟨2, _⟩ => ⟨S800000x4, .f32⟩
  | .hbm, ⟨3, _⟩ => ⟨S50000x1, .i32⟩
  | .hbm, ⟨4, _⟩ => ⟨S50000, .i32⟩
  | .hbm, ⟨5, _⟩ => ⟨S256x12, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S10x128, .f32⟩
  | .hbm, ⟨13, _⟩ => ⟨S10, .f32⟩
  | .hbm, ⟨14, _⟩ => ⟨S50000x12, .f32⟩
  | .hbm, ⟨15, _⟩ => ⟨S50000x128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S128x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S128x128, .f32⟩
  | .hbm, ⟨64, _⟩ => ⟨S128x128, .f32⟩
  | .hbm, ⟨65, _⟩ => ⟨S50000x128, .f32⟩
  | .hbm, ⟨66, _⟩ => ⟨S_, .f32⟩
  | .hbm, ⟨67, _⟩ => ⟨S64x128, .f32⟩
  | .hbm, ⟨68, _⟩ => ⟨S50000x1, .i32⟩
  | .hbm, ⟨69, _⟩ => ⟨S64x128, .f32⟩
  | .hbm, ⟨70, _⟩ => ⟨S_, .f32⟩
  | .hbm, ⟨71, _⟩ => ⟨S50000, .f32⟩
  | .hbm, ⟨72, _⟩ => ⟨S_, .f32⟩
  | .hbm, ⟨73, _⟩ => ⟨S64, .f32⟩
  | .hbm, ⟨74, _⟩ => ⟨S50000x1, .i32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S64x1, .f32⟩
  | .hbm, ⟨80, _⟩ => ⟨S64x128, .f32⟩
  | .hbm, ⟨81, _⟩ => ⟨S64x128, .f32⟩
  | .hbm, ⟨82, _⟩ => ⟨S128x10, .f32⟩
  | .hbm, ⟨83, _⟩ => ⟨S64x10, .f32⟩
  | .local _ .vmem, ⟨0, _⟩ => ⟨S5000x1, .i32⟩
  | .local _ .vmem, ⟨1, _⟩ => ⟨S5000x1, .i32⟩
  | .local _ .vmem, ⟨2, _⟩ => ⟨S256x12, .f32⟩
  | .local _ .vmem, ⟨3, _⟩ => ⟨S5000x12, .f32⟩
  | .local _ .vmem, ⟨4, _⟩ => ⟨S5000x12, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S64x128, .f32⟩
  | .local _ .vmem, ⟨24, _⟩ => ⟨S128x10, .f32⟩
  | .local _ .vmem, ⟨25, _⟩ => ⟨S10, .f32⟩
  | .local _ .vmem, ⟨26, _⟩ => ⟨S64x10, .f32⟩
  | _, _ => ⟨S50000x116, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem1_0 : DmaSem sig := 24
abbrev cc3_sem2_0 : DmaSem sig := 25
abbrev cc3_sem3_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  inb_S5000x1_S5000x1_0_0 : ∀ a, (![0, 0] : Fin 2 → Nat) a + S5000x1.size a ≤ S5000x1.size a
  h_S5000x1 : 0 < S5000x1.numel
  iota_S5000x256_d1_w32 : S5000x256.Iotas .tc 32 [1]
  broadcasts_S5000x1_S5000x256 : S5000x1.Broadcasts S5000x256
  natLt_1_32 : 1 < 32
  bitsLt_bf16_f32 : FTy.bits .bf16 < FTy.bits .f32
  inb_S256x12_S256x12_0_0 : ∀ a, (![0, 0] : Fin 2 → Nat) a + S256x12.size a ≤ S256x12.size a
  h_S256x12 : 0 < S256x12.numel
  inb_S5000x12_S5000x12_0_0 : ∀ a, (![0, 0] : Fin 2 → Nat) a + S5000x12.size a ≤ S5000x12.size a
  h_S5000x12 : 0 < S5000x12.numel
  concatenates_S50000x116_S50000x12_S50000x128_d1 : Shape.Concatenates [S50000x116, S50000x12] S50000x128 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S10x128_S128x10_1_0 : S10x128.Transposes [1, 0] S128x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S10_S10_0 : ∀ a, (![0] : Fin 1 → Nat) a + S10.size a ≤ S10.size a
  h_S10 : 0 < S10.numel
  shapeCasts_S10_S1x10 : S10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  dot_S5000x256_S256x12_S5000x12_1_0_0_1_n_n_wf : DotDims.WF S5000x256 S256x12 S5000x12 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .i32 = 32 ∨ (Rect.block (s := S50000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x12.size a ≤ S256x12.size a
  hwx0_1 : ∀ i : grid0.Coords, EltTy.bits .f32 = 32 ∨ (Rect.block (s := S256x12) S256x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x12.size a ≤ S50000x12.size a
  hwx0_2 : ∀ i : grid0.Coords, EltTy.bits .f32 = 32 ∨ (Rect.block (s := S50000x12) S5000x12.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x10.size a ≤ S128x10.size a
  hwx3_1 : ∀ i : grid3.Coords, EltTy.bits .f32 = 32 ∨ (Rect.block (s := S128x10) S128x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10.size a ≤ S10.size a
  hwx3_2 : ∀ i : grid3.Coords, EltTy.bits .f32 = 32 ∨ (Rect.block (s := S10) S10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x10.size a ≤ S64x10.size a
  hwx3_3 : ∀ i : grid3.Coords, EltTy.bits .f32 = 32 ∨ (Rect.block (s := S64x10) S64x10.size (cc3_transform_3 i) (hinb3_3 i)).WholeWords (EltTy.packing .f32)

variable [Facts₀]

def dot_S5000x256_S256x12_S5000x12_1_0_0_1_n_n : DotDims S5000x256 S256x12 S5000x12 where
  lhsContracting := [1]
  rhsContracting := [0]
  lhsNonContracting := [0]
  rhsNonContracting := [1]
  lhsBatch := []
  rhsBatch := []
  wf := dot_S5000x256_S256x12_S5000x12_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg3) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x12.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v55) S128x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S64x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x116 : Shape := ⟨2, ![50000, 116]⟩
abbrev S2x800000 : Shape := ⟨2, ![2, 800000]⟩
abbrev S800000x4 : Shape := ⟨2, ![800000, 4]⟩
abbrev S50000x1 : Shape := ⟨2, ![50000, 1]⟩
abbrev S50000 : Shape := ⟨1, ![50000]⟩
abbrev S256x12 : Shape := ⟨2, ![256, 12]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩
abbrev S50000x12 : Shape := ⟨2, ![50000, 12]⟩
abbrev S50000x128 : Shape := ⟨2, ![50000, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S128x10 : Shape := ⟨2, ![128, 10]⟩
abbrev S64x10 : Shape := ⟨2, ![64, 10]⟩
abbrev S1x10 : Shape := ⟨2, ![1, 10]⟩

abbrev nBuf : Space → Nat
  | .hbm => 122
  | .vmem => 0
  | .smem => 0
  | _ => 0

abbrev bufTy : (tb : Table) → Fin (tcTables nBuf tb) → BufTy
  | .hbm, ⟨0, _⟩ => ⟨S50000x116, .f32⟩
  | .hbm, ⟨1, _⟩ => ⟨S2x800000, .i32⟩
  | .hbm, ⟨2, _⟩ => ⟨S800000x4, .f32⟩
  | .hbm, ⟨3, _⟩ => ⟨S50000x1, .i32⟩
  | .hbm, ⟨4, _⟩ => ⟨S50000, .i32⟩
  | .hbm, ⟨5, _⟩ => ⟨S256x12, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S10x128, .f32⟩
  | .hbm, ⟨13, _⟩ => ⟨S10, .f32⟩
  | .hbm, ⟨14, _⟩ => ⟨S50000, .i32⟩
  | .hbm, ⟨15, _⟩ => ⟨S_, .i32⟩
  | .hbm, ⟨16, _⟩ => ⟨S50000, .i32⟩
  | .hbm, ⟨17, _⟩ => ⟨S50000, .i1⟩
  | .hbm, ⟨18, _⟩ => ⟨S_, .i32⟩
  | .hbm, ⟨19, _⟩ => ⟨S50000, .i32⟩
  | .hbm, ⟨20, _⟩ => ⟨S50000, .i32⟩
  | .hbm, ⟨21, _⟩ => ⟨S50000, .i32⟩
  | .hbm, ⟨22, _⟩ => ⟨S50000x1, .i32⟩
  | .hbm, ⟨23, _⟩ => ⟨S50000x12, .f32⟩
  | .hbm, ⟨24, _⟩ => ⟨S50000x128, .f32⟩
  | .hbm, ⟨25, _⟩ => ⟨S1x800000, .i32⟩
  | .hbm, ⟨26, _⟩ => ⟨S800000, .i32⟩
  | .hbm, ⟨27, _⟩ => ⟨S1x800000, .i32⟩
  | .hbm, ⟨28, _⟩ => ⟨S800000, .i32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S_, .f32⟩
  | .hbm, ⟨43, _⟩ => ⟨S800000, .f32⟩
  | .hbm, ⟨44, _⟩ => ⟨S_, .f32⟩
  | .hbm, ⟨45, _⟩ => ⟨S50000, .f32⟩
  | .hbm, ⟨46, _⟩ => ⟨S800000x1, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S128x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S128x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S_, .f32⟩
  | .hbm, ⟨79, _⟩ => ⟨S800000, .f32⟩
  | .hbm, ⟨80, _⟩ => ⟨S_, .f32⟩
  | .hbm, ⟨81, _⟩ => ⟨S50000, .f32⟩
  | .hbm, ⟨82, _⟩ => ⟨S800000x1, .i32⟩
  | .hbm, ⟨83, _⟩ => ⟨S50000, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S50000x1, .f32⟩
  | .hbm, ⟨88, _⟩ => ⟨S50000x128, .f32⟩
  | .hbm, ⟨89, _⟩ => ⟨S50000x128, .f32⟩
  | .hbm, ⟨90, _⟩ => ⟨S128x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S128x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S64x128, .f32⟩
  | .hbm, ⟨103, _⟩ => ⟨S50000x1, .i32⟩
  | .hbm, ⟨104, _⟩ => ⟨S64x128, .f32⟩
  | .hbm, ⟨105, _⟩ => ⟨S_, .f32⟩
  | .hbm, ⟨106, _⟩ => ⟨S50000, .f32⟩
  | .hbm, ⟨107, _⟩ => ⟨S_, .f32⟩
  | .hbm, ⟨108, _⟩ => ⟨S64, .f32⟩
  | .hbm, ⟨109, _⟩ => ⟨S50000x1, .i32⟩
  | .hbm, ⟨110, _⟩ => ⟨S64, .f32⟩
  | .hbm, ⟨111, _⟩ => ⟨S_, .f32⟩
  | .hbm, ⟨112, _⟩ => ⟨S64, .f32⟩
  | .hbm, ⟨113, _⟩ => ⟨S64, .f32⟩
  | .hbm, ⟨114, _⟩ => ⟨S64x1, .f32⟩
  | .hbm, ⟨115, _⟩ => ⟨S64x128, .f32⟩
  | .hbm, ⟨116, _⟩ => ⟨S64x128, .f32⟩
  | .hbm, ⟨117, _⟩ => ⟨S128x10, .f32⟩
  | .hbm, ⟨118, _⟩ => ⟨S64x10, .f32⟩
  | .hbm, ⟨119, _⟩ => ⟨S1x10, .f32⟩
  | .hbm, ⟨120, _⟩ => ⟨S64x10, .f32⟩
  | .hbm, ⟨121, _⟩ => ⟨S64x10, .f32⟩
  | _, _ => ⟨S50000x116, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call0_cst : Ref sig .tc := ⟨.hbm, 62, rfl⟩
abbrev main_call0_v0 : Ref sig .tc := ⟨.hbm, 63, rfl⟩
abbrev main_v40 : Ref sig .tc := ⟨.hbm, 64, rfl⟩
abbrev main_c_6 : Ref sig .tc := ⟨.hbm, 65, rfl⟩
abbrev main_v41 : Ref sig .tc := ⟨.hbm, 66, rfl⟩
abbrev main_v42 : Ref sig .tc := ⟨.hbm, 67, rfl⟩
abbrev main_c_7 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call1_cst : Ref sig .tc := ⟨.hbm, 98, rfl⟩
abbrev main_call1_v0 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_cst_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]

class Facts₀ : Prop where
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  concatenates_S50000x116_S50000x12_S50000x128_d1 : Shape.Concatenates [S50000x116, S50000x12] S50000x128 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S10x128_S128x10_1_0 : S10x128.Transposes [1, 0] S128x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S256x12_S50000x1_S50000x12_1_0_n_n_0_1_112_wf : GatherDims.WF S256x12 S50000x1 S50000x12 [1] [0] [] [0] [] 1 ![1, 12]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def gather_S256x12_S50000x1_S50000x12_1_0_n_n_0_1_112 : GatherDims S256x12 S50000x1 S50000x12 where
  offsetDims := [1]
  collapsedSliceDims := [0]
  operandBatchingDims := []
  startIndicesBatchingDims := []
  startIndexMap := [0]
  indexVectorDim := 1
  sliceSizes := ![1, 12]
  wf := gather_S256x12_S50000x1_S50000x12_1_0_n_n_0_1_112_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.Stages.lean ====
/-
  The two dense stages of the network as functions of their operands, written with the reference's
  own operations, so that the reference's result splits into them by unfolding.

  A SAGE layer takes the mean of the neighbours' features `mean`, the node's own features `h`, the two
  weight matrices already transposed and the bias, and returns
      relu (mean · WlT + bl + h · WrT)
  row by row. The output layer takes the pooled graph features, the transposed output weights and the bias
  and returns  p · WT + b.
-/
import proofs.«401539_j71674414235947_1_alg».proof.Proof.Gen.ReferenceIdeal.Read

noncomputable section

namespace Cert.Stages

open Cert.ReferenceIdeal Cert.ReferenceIdeal.Gen Idealize.ShloMosaic

variable {F : FTy → Type} [FloatOps F]

/-- One SAGE layer after aggregation: relu (mean · WlT + bl + h · WrT). -/
def sageLayer (mean h : FVec F S50000x128 .f32) (WlT : FVec F S128x128 .f32) (bl : FVec F S128 .f32)
    (WrT : FVec F S128x128 .f32) : FVec F S50000x128 .f32 :=
  maximumf
    (addf
      (addf (Host.dotGeneral dot_S50000x128_S128x128_S50000x128_1_0_0_1_n_n none mean WlT)
        (broadcastInDim S50000x128 ![0, 1] bcast_S1x128_S50000x128_0_1 (broadcastInDim S1x128 ![1] bcast_S128_S1x128_1 bl)))
      (Host.dotGeneral dot_S50000x128_S128x128_S50000x128_1_0_0_1_n_n none h WrT))
    (broadcastInDim S50000x128 ![] bcast_S_S50000x128 (constant S_ .f32 0x00000000#32))

/-- The output layer: p · WT + b. -/
def outLayer (p : FVec F S64x128 .f32) (WT : FVec F S128x10 .f32) (b : FVec F S10 .f32) : FVec F S64x10 .f32 :=
  addf (Host.dotGeneral dot_S64x128_S128x10_S64x10_1_0_0_1_n_n none p WT)
    (broadcastInDim S64x10 ![0, 1] bcast_S1x10_S64x10_0_1 (broadcastInDim S1x10 ![1] bcast_S10_S1x10_1 b))

open Cert.ReferenceIdeal.Read

/-- The reference's first hidden layer is a SAGE layer of the first mean aggregate and the input features. -/
theorem v40_split (x0 : FVec F S50000x116 .f32) (x1 : IVec S2x800000 32) (x3 : IVec S50000x1 32) (x5 : FVec F S256x12 .f32)
    (x6 : FVec F S128x128 .f32) (x7 : FVec F S128 .f32) (x8 : FVec F S128x128 .f32) :
    val_main_v40 (F := F) x0 x1 x3 x5 x6 x7 x8
      = sageLayer (val_main_v31 (F := F) x0 x1 x3 x5) (val_main_v8 (F := F) x0 x3 x5) (val_main_v32 (F := F) x6) x7 (val_main_v37 (F := F) x8) := rfl

/-- The second hidden layer is a SAGE layer of the second mean aggregate and the first hidden layer. -/
theorem v68_split (x0 : FVec F S50000x116 .f32) (x1 : IVec S2x800000 32) (x3 : IVec S50000x1 32) (x5 : FVec F S256x12 .f32)
    (x6 : FVec F S128x128 .f32) (x7 : FVec F S128 .f32) (x8 x9 : FVec F S128x128 .f32) (x10 : FVec F S128 .f32) (x11 : FVec F S128x128 .f32) :
    val_main_v68 (F := F) x0 x1 x3 x5 x6 x7 x8 x9 x10 x11
      = sageLayer (val_main_v59 (F := F) x0 x1 x3 x5 x6 x7 x8) (val_main_v40 (F := F) x0 x1 x3 x5 x6 x7 x8) (val_main_v60 (F := F) x9) x10 (val_main_v65 (F := F) x11) := rfl

/-- The reference's result is the output layer of the pooled features. -/
theorem v85_split (x0 : FVec F S50000x116 .f32) (x1 : IVec S2x800000 32) (x3 : IVec S50000x1 32) (x4 : IVec S50000 32) (x5 : FVec F S256x12 .f32)
    (x6 : FVec F S128x128 .f32) (x7 : FVec F S128 .f32) (x8 x9 : FVec F S128x128 .f32) (x10 : FVec F S128 .f32) (x11 : FVec F S128x128 .f32)
    (x12 : FVec F S10x128 .f32) (x13 : FVec F S10 .f32) :
    val_main_v85 (F := F) x0 x1 x3 x4 x5 x6 x7 x8 x9 x10 x11 x12 x13
      = outLayer (val_main_v80 (F := F) x0 x1 x3 x4 x5 x6 x7 x8 x9 x10 x11) (val_main_v81 (F := F) x12) x13 := rfl

end Cert.Stages

end
-- ==== Proof.Range.lean ====
/-
  The domain of the node-type column. The reference looks a node's embedding row up by its type
  index; the lookup is an ordinary row read exactly when the index lies in [0, 256), the number of
  rows of the embedding table. This predicate says so of every entry of the [50000, 1] column,
  the entries read as signed 32-bit integers.
-/
import Idealize.ShloMosaic.PureOps

namespace Cert.Stages

open Idealize.ShloMosaic

/-- Every node's type index is a valid row of the 256-row embedding table. -/
def StInRange (x : IVec ⟨2, ![50000, 1]⟩ 32) : Prop := ∀ i, 0 ≤ (x i).toInt ∧ (x i).toInt < 256

end Cert.Stages
-- ==== Proof.Region0.lean ====
/-
  The embedding region. Each grid point takes 5000 node-type indices and the whole 256-row table and writes, for node n
  and feature q, the sum over the 256 classes c of [st n = c] · emb c q. When st n is a valid row this sum has one
  non-zero term, emb (st n) q: the row the reference's lookup reads. The ten blocks tile the 50000 rows.
-/
import proofs.«401539_j71674414235947_1_alg».proof.Proof.Gen.KernelIdeal.Frame
import proofs.«401539_j71674414235947_1_alg».proof.Proof.Stages
import proofs.«401539_j71674414235947_1_alg».proof.Proof.Range
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

namespace EmbLookup

/-! ## The one-hot product at an entry

The product's operand indices at output index i and contraction index k, axis by axis: the left factor is read at
(i 0, k), the table at (k, i 1). -/

/-- Rows of the left factor: the output row. -/
theorem onehot_lhs_0 (i : S5000x12.Idx) (q : dot_S5000x256_S256x12_S5000x12_1_0_0_1_n_n.contr.Idx) :
    (dot_S5000x256_S256x12_S5000x12_1_0_0_1_n_n.lhsIdx i q 0).val = (i 0).val := by
  unfold DotDims.lhsIdx
  rw [dif_neg (show ¬(0 : Fin S5000x256.rank) ∈ dot_S5000x256_S256x12_S5000x12_1_0_0_1_n_n.lhsBatch by decide), dif_pos (show (0 : Fin S5000x256.rank) ∈ dot_S5000x256_S256x12_S5000x12_1_0_0_1_n_n.lhsNonContracting by decide)]
  rfl
/-- Columns of the left factor: the contraction index, the class. -/
theorem onehot_lhs_1 (i : S5000x12.Idx) (q : dot_S5000x256_S256x12_S5000x12_1_0_0_1_n_n.contr.Idx) :
    (dot_S5000x256_S256x12_S5000x12_1_0_0_1_n_n.lhsIdx i q 1).val = (q ⟨0, by decide⟩).val :=
  dot_S5000x256_S256x12_S5000x12_1_0_0_1_n_n.lhsIdx_val_of_single rfl i q
/-- Rows of the table: the class. -/
theorem onehot_rhs_0 (i : S5000x12.Idx) (q : dot_S5000x256_S256x12_S5000x12_1_0_0_1_n_n.contr.Idx) :
    (dot_S5000x256_S256x12_S5000x12_1_0_0_1_n_n.rhsIdx i q 0).val = (q ⟨0, by decide⟩).val :=
  dot_S5000x256_S256x12_S5000x12_1_0_0_1_n_n.rhsIdx_val_of_single rfl i q
/-- Columns of the table: the output column. -/
theorem onehot_rhs_1 (i : S5000x12.Idx) (q : dot_S5000x256_S256x12_S5000x12_1_0_0_1_n_n.contr.Idx) :
    (dot_S5000x256_S256x12_S5000x12_1_0_0_1_n_n.rhsIdx i q 1).val = (i 1).val := by
  unfold DotDims.rhsIdx
  rw [dif_neg (show ¬(1 : Fin S256x12.rank) ∈ dot_S5000x256_S256x12_S5000x12_1_0_0_1_n_n.rhsBatch by decide), dif_pos (show (1 : Fin S256x12.rank) ∈ dot_S5000x256_S256x12_S5000x12_1_0_0_1_n_n.rhsNonContracting by decide)]
  rfl

/-- The broadcast column at (p, k) is the column's entry at row p. -/
theorem bcast_col (v0 : Vec Ideal S5000x1 .i32) (p : Fin 5000) (k : Fin 256) :
    broadcastTo S5000x256 v0 broadcasts_S5000x1_S5000x256 (ix2 p k) = v0 (ix2 p 0) :=
  broadcastTo_apply v0 broadcasts_S5000x1_S5000x256 (ix2 p k) (ix2 p 0) (fun a => by
    match a with
    | ⟨0, _⟩ => show p.val = if (5000 : Nat) = 1 then 0 else p.val; rw [if_neg (by decide)]
    | ⟨1, _⟩ => rfl)

/-- The product at (p, q): the sum over the 256 classes k of the indicator [st p = k], as the real number of a 0/1
    word, times the table at (k, q). The changes of float format are the identity on extended reals. -/
theorem onehot_product (v0 : Vec Ideal S5000x1 .i32) (v7 : Vec Ideal S256x12 .f32) (p : Fin 5000) (q : Fin 12) :
    k0_pay1 (F := Ideal) v0 v7 (ix2 p q) = ∑ k : Fin 256,
      ((((IntOp.cmpi .eq (v0 (ix2 p 0)) (BitVec.ofNat 32 k.val)).setWidth 32).toInt : ℝ) : EReal) * v7 (ix2 k q) := by
  unfold k0_pay1
  simp only [matmul]
  rw [Ideal.matmul_constant_zero_apply, ← Equiv.sum_comp (contrEquiv1 dot_S5000x256_S256x12_S5000x12_1_0_0_1_n_n 256 rfl rfl).symm]
  refine Finset.sum_congr rfl fun k _ => ?_
  have hk := contrEquiv1_symm_val dot_S5000x256_S256x12_S5000x12_1_0_0_1_n_n 256 rfl rfl k
  have el : dot_S5000x256_S256x12_S5000x12_1_0_0_1_n_n.lhsIdx (ix2 p q) ((contrEquiv1 dot_S5000x256_S256x12_S5000x12_1_0_0_1_n_n 256 rfl rfl).symm k) = (ix2 p k : S5000x256.Idx) := funext fun a => Fin.ext (by
    match a with
    | ⟨0, _⟩ => exact onehot_lhs_0 _ _
    | ⟨1, _⟩ => exact (onehot_lhs_1 _ _).trans hk)
  have er : dot_S5000x256_S256x12_S5000x12_1_0_0_1_n_n.rhsIdx (ix2 p q) ((contrEquiv1 dot_S5000x256_S256x12_S5000x12_1_0_0_1_n_n 256 rfl rfl).symm k) = (ix2 k q : S256x12.Idx) := funext fun a => Fin.ext (by
    match a with
    | ⟨0, _⟩ => exact (onehot_rhs_0 _ _).trans hk
    | ⟨1, _⟩ => exact onehot_rhs_1 _ _)
  rw [el, er, truncf_apply, truncf_apply, sitofp_apply, extui_apply]
  show ((((IntOp.cmpi .eq (broadcastTo S5000x256 v0 broadcasts_S5000x1_S5000x256 (ix2 p k)) (iota .tc S5000x256 32 [1] iota_S5000x256_d1_w32 (ix2 p k))).setWidth 32).toInt : ℝ) : EReal) * _ = _
  rw [bcast_col, iota_single_apply]

/-- The one-hot entry as a word: comparing a 32-bit word with the class k below 256, widened to 32 bits and read
    signed, is 1 when the word's value is k and 0 otherwise. -/
theorem onehot_word (s : BitVec 32) (k : Nat) (hk : k < 256) :
    ((IntOp.cmpi .eq s (BitVec.ofNat 32 k)).setWidth 32).toInt = if s.toNat = k then 1 else 0 := by
  by_cases h : s.toNat = k
  · have e : s = BitVec.ofNat 32 k := by rw [← h, BitVec.ofNat_toNat, BitVec.setWidth_eq]
    rw [if_pos h, e]
    simp [IntOp.cmpi]
  · have e : ¬ s = BitVec.ofNat 32 k := fun e => h (by rw [e, BitVec.toNat_ofNat]; omega)
    have eb : (s == BitVec.ofNat 32 k) = false := beq_eq_false_iff_ne.mpr e
    rw [if_neg h]
    simp [IntOp.cmpi, eb]

/-- The product at (p, q) when the type index at row p is a valid class: the table's row at that class. -/
theorem onehot_product_row (v0 : Vec Ideal S5000x1 .i32) (v7 : Vec Ideal S256x12 .f32) (p : Fin 5000) (q : Fin 12)
    (h0 : 0 ≤ (v0 (ix2 p 0)).toInt) (h1 : (v0 (ix2 p 0)).toInt < 256) (hlt : (v0 (ix2 p 0)).toNat < 256) :
    k0_pay1 (F := Ideal) v0 v7 (ix2 p q) = v7 (ix2 ⟨(v0 (ix2 p 0)).toNat, hlt⟩ q) := by
  rw [onehot_product, Finset.sum_eq_single (⟨(v0 (ix2 p 0)).toNat, hlt⟩ : Fin 256)]
  · rw [onehot_word _ _ hlt, if_pos rfl]
    simp
  · intro k _ hne
    rw [onehot_word _ _ k.isLt, if_neg (fun e => hne (Fin.ext e.symm))]
    simp
  · intro hn; exact absurd (Finset.mem_univ _) hn

/-! ## The reference's lookup at an entry -/

open Cert.ReferenceIdeal.Read

/-- A 32-bit word whose signed value lies in [0, 256) has that value as its unsigned one. -/
theorem word_range (s : BitVec 32) (h0 : 0 ≤ s.toInt) (h1 : s.toInt < 256) : s.toNat < 256 ∧ s.toInt.toNat = s.toNat := by
  have h := BitVec.toInt_eq_toNat_cond s
  have hl := s.isLt
  split at h <;> omega

/-- The reference's index column at row n, for a non-negative type index: the index itself (the wrap of a negative
    index by 256 is not taken). -/
theorem ref_index (x3 : IVec ⟨2, ![50000, 1]⟩ 32) (n : Fin 50000) (h0 : 0 ≤ (x3 (ix2 n 0)).toInt) :
    val_main_v6 (F := Ideal) x3 (ix2 n 0) = x3 (ix2 n 0) := by
  have ei : Cert.ReferenceIdeal.Read.idx_main_v0 (Cert.ReferenceIdeal.Read.idx_main_v6 (ix2 n (0 : Fin 1))) = (ix2 n 0 : Cert.ReferenceIdeal.S50000x1.Idx) :=
    funext fun a => Fin.ext (by
      match a with
      | ⟨0, _⟩ => show n.val / 1 = n.val; omega
      | ⟨1, _⟩ => rfl)
  rw [val_main_v6_apply, val_main_v5_apply, val_main_v2_apply, val_main_v4_apply, val_main_v0_apply, val_main_v1_apply, val_main_c_apply, ei]
  have hc : IntOp.cmpi .slt (x3 (ix2 n 0)) 0#32 = 0#1 := by
    have hn : ¬ (x3 (ix2 n 0)).toInt < 0 := by omega
    simp [IntOp.cmpi, BitVec.slt, hn]
  rw [hc, select_zero]

/-- The lookup's operand row: the start index read at (n, 0), signed, clamped into the table's 256 rows (axis 0 is
    collapsed: no batch and no offset coordinate). -/
theorem lookup_axis_0 (n : Fin 50000) (q : Fin 12) (idx : IVec Cert.ReferenceIdeal.S50000x1 32) :
    Cert.ReferenceIdeal.gather_S256x12_S50000x1_S50000x12_1_0_n_n_0_1_112.start (ix2 n q) idx 0
      + Cert.ReferenceIdeal.gather_S256x12_S50000x1_S50000x12_1_0_n_n_0_1_112.batchCoord (ix2 n q) 0
      + Cert.ReferenceIdeal.gather_S256x12_S50000x1_S50000x12_1_0_n_n_0_1_112.offCoord (ix2 n q) 0
      = min (idx (ix2 n 0)).toInt.toNat (256 - 1) := by
  rw [GatherDims.batchCoord_eq_zero _ _ _ (by decide), GatherDims.offCoord_eq_zero _ _ _ (by decide)]
  simp only [Nat.add_zero]
  unfold GatherDims.start
  rw [dif_pos (show (0 : Fin Cert.ReferenceIdeal.S256x12.rank) ∈ Cert.ReferenceIdeal.gather_S256x12_S50000x1_S50000x12_1_0_n_n_0_1_112.startIndexMap by decide)]
  have hsi : Cert.ReferenceIdeal.gather_S256x12_S50000x1_S50000x12_1_0_n_n_0_1_112.siIdx (ix2 n q)
      ⟨List.idxOf (0 : Fin Cert.ReferenceIdeal.S256x12.rank) Cert.ReferenceIdeal.gather_S256x12_S50000x1_S50000x12_1_0_n_n_0_1_112.startIndexMap,
        List.idxOf_lt_length_iff.2 (by decide)⟩ = (ix2 n 0 : Cert.ReferenceIdeal.S50000x1.Idx) := by
    funext b; refine Fin.ext ?_
    match b with
    | ⟨0, _⟩ => rfl
    | ⟨1, _⟩ => rfl
  rw [hsi]
  rfl

/-- The lookup's operand column: the result's column (axis 1 is the offset axis: start 0, no batch coordinate). -/
theorem lookup_axis_1 (n : Fin 50000) (q : Fin 12) (idx : IVec Cert.ReferenceIdeal.S50000x1 32) :
    Cert.ReferenceIdeal.gather_S256x12_S50000x1_S50000x12_1_0_n_n_0_1_112.start (ix2 n q) idx 1
      + Cert.ReferenceIdeal.gather_S256x12_S50000x1_S50000x12_1_0_n_n_0_1_112.batchCoord (ix2 n q) 1
      + Cert.ReferenceIdeal.gather_S256x12_S50000x1_S50000x12_1_0_n_n_0_1_112.offCoord (ix2 n q) 1
      = q.val := by
  rw [GatherDims.batchCoord_eq_zero _ _ _ (by decide)]
  unfold GatherDims.start GatherDims.offCoord
  rw [dif_neg (show ¬ (1 : Fin Cert.ReferenceIdeal.S256x12.rank) ∈ Cert.ReferenceIdeal.gather_S256x12_S50000x1_S50000x12_1_0_n_n_0_1_112.startIndexMap by decide),
    dif_pos (show (1 : Fin Cert.ReferenceIdeal.S256x12.rank) ∈ Cert.ReferenceIdeal.gather_S256x12_S50000x1_S50000x12_1_0_n_n_0_1_112.sKept by decide)]
  simp only [Nat.zero_add, Nat.add_zero]
  rfl

/-- The reference's lookup at (n, q), for a type index in [0, 256): the table's row at that index. -/
theorem ref_row (x3 : IVec ⟨2, ![50000, 1]⟩ 32) (x5 : FVec Ideal Cert.ReferenceIdeal.S256x12 .f32) (n : Fin 50000) (q : Fin 12)
    (h0 : 0 ≤ (x3 (ix2 n 0)).toInt) (h1 : (x3 (ix2 n 0)).toInt < 256) (hlt : (x3 (ix2 n 0)).toNat < 256) :
    val_main_v7 (F := Ideal) x3 x5 (ix2 n q) = x5 (ix2 ⟨(x3 (ix2 n 0)).toNat, hlt⟩ q) := by
  unfold val_main_v7 Host.gather
  congr 1
  funext a
  refine Fin.ext ?_
  match a with
  | ⟨0, _⟩ =>
    refine (lookup_axis_0 n q _).trans ?_
    rw [ref_index x3 n h0]
    have hw := word_range _ h0 h1
    show min (x3 (ix2 n 0)).toInt.toNat (256 - 1) = (x3 (ix2 n 0)).toNat
    omega
  | ⟨1, _⟩ => exact lookup_axis_1 n q _

/-! ## From the ten blocks to the array -/

/-- Both sides at one entry: when the staged column at row p is the type column at row n, and the staged table is the
    table, the one-hot product at (p, q) is the lookup at (n, q). -/
theorem entry_eq (v0 : Vec Ideal S5000x1 .i32) (v7 : Vec Ideal S256x12 .f32) (x3 : IVec ⟨2, ![50000, 1]⟩ 32)
    (x5 : FVec Ideal Cert.ReferenceIdeal.S256x12 .f32) (p : Fin 5000) (q : Fin 12) (n : Fin 50000)
    (hx : Cert.Stages.StInRange x3) (e0 : v0 (ix2 p 0) = x3 (ix2 n 0)) (e1 : ∀ y, v7 y = x5 y) :
    k0_pay1 (F := Ideal) v0 v7 (ix2 p q) = val_main_v7 (F := Ideal) x3 x5 (ix2 n q) := by
  obtain ⟨h0, h1⟩ := hx (ix2 n 0)
  have hw := word_range _ h0 h1
  rw [ref_row x3 x5 n q h0 h1 hw.1]
  rw [← e0] at h0 h1
  have hw' := word_range _ h0 h1
  rw [onehot_product_row v0 v7 p q h0 h1 hw'.1, e1]
  have key : ∀ (s s' : BitVec 32) (e : s = s') (h : s.toNat < 256) (h' : s'.toNat < 256),
      x5 (ix2 ⟨s.toNat, h⟩ q) = x5 (ix2 ⟨s'.toNat, h'⟩ q) := by
    intro s s' e h h'; subst e; rfl
  exact key _ _ e0 _ _

/-- The body reads and writes each staging buffer whole: every access starts at the origin. -/
theorem zero_offsets : (![0, 0] : Fin 2 → Nat) = fun _ => 0 :=
  funext fun a => by match a with | ⟨0, _⟩ => rfl | ⟨1, _⟩ => rfl

/-- The three windows' block indices at grid point t: the column and the output move with t along the rows, the
    table's block is the whole table. -/
theorem blk_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back: block t of the reference's lookup. -/
theorem written_block (c : Dev nD) (hst : Cert.Stages.StInRange (V c main_arg3)) (t : Fin cfg0.N) :
    (dat0 (F := Ideal) V c).flushed 2 t
      = ((cfg0.win 2).blk t).view.read (Elt Ideal) (val_main_v7 (F := Ideal) (V c main_arg3) (V c main_arg5)) := by
  show (cfg0.win 2).cut (grid0.coords t) ((dat0 V c).after 2 t) = _
  rw [after0_2]
  unfold out0_2
  rw [View.canon_unit_zero zero_offsets]
  simp only [View.ld_unit_zero (S := S5000x1) zero_offsets, View.ld_unit_zero (S := S256x12) zero_offsets]
  obtain ⟨e0, e1, e2, e3, e4, e5⟩ := blk_index t
  have ht : t.val < 10 := t.isLt
  funext j
  obtain ⟨p, q, rfl⟩ : ∃ (p : Fin 5000) (q : Fin 12), j = ix2 p q := ⟨j 0, j 1, eq_ix2 j⟩
  have hn : t.val * 5000 + p.val < 50000 := by have := p.isLt; omega
  show k0_pay1 (F := Ideal) (iblk0 V c 0 t) (iblk0 V c 1 t) (ix2 p q)
    = val_main_v7 (F := Ideal) (V c main_arg3) (V c main_arg5) (((cfg0.win 2).blk t).view.emb (ix2 p q))
  have eo : ((cfg0.win 2).blk t).view.emb (ix2 p q) = (ix2 ⟨t.val * 5000 + p.val, hn⟩ q : S50000x12.Idx) := by
    funext a; apply Fin.ext
    match a with
    | ⟨0, _⟩ => show win0_2.index t (0 : Fin 2) * 5000 + 1 * p.val = t.val * 5000 + p.val; omega
    | ⟨1, _⟩ => show win0_2.index t (1 : Fin 2) * 12 + 1 * q.val = q.val; omega
  rw [eo]
  refine entry_eq _ _ _ _ p q ⟨t.val * 5000 + p.val, hn⟩ hst ?_ ?_
  · show V c main_arg3 (((cfg0.win 0).blk t).view.emb (ix2 p 0)) = V c main_arg3 (ix2 ⟨t.val * 5000 + p.val, hn⟩ 0)
    congr 1
    funext a; apply Fin.ext
    match a with
    | ⟨0, _⟩ => show win0_0.index t (0 : Fin 2) * 5000 + 1 * p.val = t.val * 5000 + p.val; omega
    | ⟨1, _⟩ => show win0_0.index t (1 : Fin 2) * 1 + 1 * 0 = 0; omega
  · intro y
    show V c main_arg5 (((cfg0.win 1).blk t).view.emb y) = V c main_arg5 y
    congr 1
    funext a; apply Fin.ext
    match a with
    | ⟨0, _⟩ => show win0_1.index t (0 : Fin 2) * 256 + 1 * (y 0).val = (y 0).val; omega
    | ⟨1, _⟩ => show win0_1.index t (1 : Fin 2) * 12 + 1 * (y 1).val = (y 1).val; omega

/-- An index of the output array is in point t's block iff each coordinate is in the block's range on its axis. -/
theorem mem_out_block (t : Fin cfg0.N) (i : S50000x12.Idx) :
    i ∈ ((cfg0.win 2).blk t).view.set ↔ ∀ a : Fin 2, win0_2.index t a * S5000x12.size a ≤ (i a).val ∧ (i a).val < win0_2.index t a * S5000x12.size a + S5000x12.size a := by
  show i ∈ ((View.whole main_v0).slice (win0_2.rect t)).set ↔ _
  rw [View.set_slice_whole, Rect.mem_set_unit]
  exact Iff.rfl

/-- The ten blocks of 5000 rows tile the 50000 rows: row r is in the block of point r / 5000. -/
theorem rows_tiled (i : S50000x12.Idx) :
    ∃ t : Fin cfg0.N, (cfg0.win 2).flush t = true ∧ i ∈ ((cfg0.win 2).blk t).view.set := by
  have hi0 : (i 0).val < 50000 := (i 0).isLt
  have hi1 : (i 1).val < 12 := (i 1).isLt
  have ht : (i 0).val / 5000 < 10 := by omega
  obtain ⟨-, -, -, -, e4, e5⟩ := blk_index ⟨(i 0).val / 5000, ht⟩
  refine ⟨⟨(i 0).val / 5000, ht⟩, flush0_2 _, ?_⟩
  rw [mem_out_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 12 ≤ (i 1).val ∧ (i 1).val < win0_2.index ⟨(i 0).val / 5000, ht⟩ (1 : Fin 2) * 12 + 12
    omega

end EmbLookup

/-- What the embedding region leaves in its output array, for any contents at its entry whose type column is in range:
    the reference's row lookup of the table at the type column. -/
theorem region0_value (c : Dev nD) (hst : Cert.Stages.StInRange (V c main_arg3)) :
    (dat0 (F := Ideal) V c).arrAt 2 cfg0.N
      = Cert.ReferenceIdeal.Read.val_main_v7 (F := Ideal) (V c main_arg3) (V c main_arg5) :=
  (dat0 V c).arrAt_eq_of_cover 2 _ (fun t _ => EmbLookup.written_block V c hst t) EmbLookup.rows_tiled

end Cert.KernelIdeal.RegionValue

end
-- ==== Proof.Region1.lean ====
/-
  The first SAGE region. Each grid point takes 5000 rows of the mean aggregate and of the node features, the two
  128 × 128 weight matrices (already transposed) and the bias, and writes relu (mean · WlT + bl + h · WrT) for its rows.
  A row of the result depends only on the same row of the two row operands, so the ten blocks are the ten row bands
  of the whole-array layer.
-/
import proofs.«401539_j71674414235947_1_alg».proof.Proof.Gen.KernelIdeal.Frame
import proofs.«401539_j71674414235947_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open scoped BigOperators

namespace Region1

/-! ## The reference layer read at an index -/

/-- A row-by-column product of the reference: entry (r, c) is the sum over k of x (r, k) · w (k, c). -/
theorem refDot_apply (x : FVec Ideal Cert.ReferenceIdeal.S50000x128 .f32) (w : FVec Ideal Cert.ReferenceIdeal.S128x128 .f32)
    (i : Cert.ReferenceIdeal.S50000x128.Idx) :
    Host.dotGeneral Cert.ReferenceIdeal.dot_S50000x128_S128x128_S50000x128_1_0_0_1_n_n none x w i
      = ∑ k : Fin 128, x (Cert.ReferenceIdeal.Read.lidx_main_v33 i k) * w (Cert.ReferenceIdeal.Read.ridx_main_v33 i k) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = Cert.ReferenceIdeal.Read.lidx_main_v33 i k := funext fun a => Fin.ext (by
    match a with
    | ⟨0, _⟩ => exact Cert.ReferenceIdeal.Read.lhs_main_v33_0 _ _
    | ⟨1, _⟩ => exact (Cert.ReferenceIdeal.Read.lhs_main_v33_1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = Cert.ReferenceIdeal.Read.ridx_main_v33 i k := funext fun a => Fin.ext (by
    match a with
    | ⟨0, _⟩ => exact (Cert.ReferenceIdeal.Read.rhs_main_v33_0 _ _).trans hk
    | ⟨1, _⟩ => exact Cert.ReferenceIdeal.Read.rhs_main_v33_1 _ _)
  rw [el, er]

/-- The bias spread over the rows: entry (r, c) is b c. -/
theorem refBias_apply (b : FVec Ideal Cert.ReferenceIdeal.S128 .f32) (i : Cert.ReferenceIdeal.S50000x128.Idx) :
    broadcastInDim Cert.ReferenceIdeal.S50000x128 ![0, 1] Cert.ReferenceIdeal.Gen.bcast_S1x128_S50000x128_0_1
        (broadcastInDim Cert.ReferenceIdeal.S1x128 ![1] Cert.ReferenceIdeal.Gen.bcast_S128_S1x128_1 b) i
      = b (ValueIdx.ix1 (i 1)) := by
  rw [broadcastInDim_apply _ Cert.ReferenceIdeal.Gen.bcast_S1x128_S50000x128_0_1 _ i (ValueIdx.ix2 (⟨0, Nat.one_pos⟩ : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ Cert.ReferenceIdeal.Gen.bcast_S128_S1x128_1 b _ (ValueIdx.ix1 (i 1)) (fun a => match a with
    | ⟨0, _⟩ => by show (i 1).val = if (128 : Nat) = 1 then 0 else (i 1).val; rw [if_neg (by decide)])

/-- The zero spread over the whole array. -/
theorem refZero_apply (i : Cert.ReferenceIdeal.S50000x128.Idx) :
    broadcastInDim Cert.ReferenceIdeal.S50000x128 ![] Cert.ReferenceIdeal.Gen.bcast_S_S50000x128 (constant (F := Ideal) Cert.ReferenceIdeal.S_ .f32 0x00000000#32) i
      = Ideal.ofBits .f32 0x00000000#32 := by
  rw [broadcastInDim_apply _ Cert.ReferenceIdeal.Gen.bcast_S_S50000x128 _ i ValueIdx.ix0 (fun a => a.elim0)]
  rfl

/-- The SAGE layer at entry (r, c): relu of  Σₖ mean (r, k) · WlT (k, c)  +  bl c  +  Σₖ h (r, k) · WrT (k, c). -/
theorem sageLayer_apply (mean h : FVec Ideal Cert.ReferenceIdeal.S50000x128 .f32) (WlT : FVec Ideal Cert.ReferenceIdeal.S128x128 .f32)
    (bl : FVec Ideal Cert.ReferenceIdeal.S128 .f32) (WrT : FVec Ideal Cert.ReferenceIdeal.S128x128 .f32) (i : Cert.ReferenceIdeal.S50000x128.Idx) :
    Cert.Stages.sageLayer (F := Ideal) mean h WlT bl WrT i
      = max ((∑ k : Fin 128, mean (Cert.ReferenceIdeal.Read.lidx_main_v33 i k) * WlT (Cert.ReferenceIdeal.Read.ridx_main_v33 i k))
              + bl (ValueIdx.ix1 (i 1))
              + ∑ k : Fin 128, h (Cert.ReferenceIdeal.Read.lidx_main_v33 i k) * WrT (Cert.ReferenceIdeal.Read.ridx_main_v33 i k))
          (Ideal.ofBits .f32 0x00000000#32) := by
  unfold Cert.Stages.sageLayer
  rw [ValueIdx.maximumf_apply, ValueIdx.addf_apply, ValueIdx.addf_apply, refDot_apply, refDot_apply, refBias_apply, refZero_apply]

/-! ## The body's payload read at an index -/

/-- The operand indices of the block product at output entry j and contraction index q: rows from j, the contracted axis from q. -/
theorem blkDot_lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blkDot_lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem blkDot_rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem blkDot_rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator: entry (p, q) is the sum over k of x (p, k) · w (k, q). -/
theorem blkDot_apply {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ValueIdx.ix2 p q)
      = ∑ k : Fin 128, x (ValueIdx.ix2 p k) * w (ValueIdx.ix2 k q) := by
  show FloatOps.matmul dot_S5000x128_S128x128_S5000x128_1_0_0_1_n_n none x w (constant S5000x128 .f32 0x00000000#32) (ValueIdx.ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact blkDot_lhs_0 _ _
    | ⟨1, _⟩ => exact (blkDot_lhs_1 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (blkDot_rhs_0 _ _).trans hk
    | ⟨1, _⟩ => exact blkDot_rhs_1 _ _)
  rw [el, er]

/-- The bias as a one-row block spread over the rows of the block: entry (p, q) is b q. -/
theorem blkBias_apply (b : Vec Ideal S128 .f32) (p : Fin 5000) (q : Fin 128) :
    broadcastTo S5000x128 (shapeCast S1x128 b shapeCasts_S128_S1x128) broadcasts_S1x128_S5000x128 (ValueIdx.ix2 p q)
      = b (ValueIdx.ix1 q) := by
  rw [broadcastTo_apply _ broadcasts_S1x128_S5000x128 (ValueIdx.ix2 p q) (ValueIdx.ix2 (⟨0, Nat.one_pos⟩ : Fin 1) q) (fun a => match a with
    | ⟨0, _⟩ => by show 0 = if (1 : Nat) = 1 then 0 else _; rw [if_pos rfl]
    | ⟨1, _⟩ => by show q.val = if (128 : Nat) = 1 then 0 else _; rw [if_neg (by decide)]; rfl)]
  rw [shapeCast_addUnit_apply ![128] b]
  exact congrArg b (funext fun a => match a with | ⟨0, _⟩ => rfl)

/-- The payload at entry (p, q) of the block: relu of  Σₖ x (p, k) · wl (k, q)  +  b q  +  Σₖ y (p, k) · wr (k, q),
    the narrowing casts being the identity on ideal values. -/
theorem pay_apply (x y : Vec Ideal S5000x128 .f32) (wl wr : Vec Ideal S128x128 .f32) (b : Vec Ideal S128 .f32) (p : Fin 5000) (q : Fin 128) :
    k1_pay1 (F := Ideal) x y wl wr b (ValueIdx.ix2 p q)
      = max ((∑ k : Fin 128, x (ValueIdx.ix2 p k) * wl (ValueIdx.ix2 k q)) + b (ValueIdx.ix1 q)
              + ∑ k : Fin 128, y (ValueIdx.ix2 p k) * wr (ValueIdx.ix2 k q))
          (Ideal.ofBits .f32 0x00000000#32) := by
  unfold k1_pay1
  simp only [shapeCast_self]
  rw [ValueIdx.maximumf_apply, ValueIdx.addf_apply, ValueIdx.addf_apply, blkDot_apply, blkDot_apply, blkBias_apply, ValueIdx.broadcast_apply]
  rfl

/-! ## What a grid point writes back -/

theorem hz2 : (![0, 0] : Fin 2 → Nat) = fun _ => 0 := funext fun a => by fin_cases a <;> rfl
theorem hz1 : (![0] : Fin 1 → Nat) = fun _ => 0 := funext fun a => by fin_cases a; rfl

/-- The index maps over the ten grid points: the two row operands and the result take row band t, the weights and the
    bias their whole arrays. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem flushed_eq (c : Dev nD) (t : Fin cfg1.N) :
    (dat1 (F := Ideal) V c).flushed 5 t = ((cfg1.win 5).blk t).view.read (Elt Ideal)
      (Cert.Stages.sageLayer (F := Ideal) (V c main_v24) (V c main_v1) (V c main_v25) (V c main_arg7) (V c main_v26)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ValueIdx.ix2 p q := ⟨j 0, j 1, ValueIdx.eq_ix2 j⟩
  show k1_pay1 (iblk1 V c 0 t) (iblk1 V c 1 t) (iblk1 V c 2 t) (iblk1 V c 4 t) (iblk1 V c 3 t) (ValueIdx.ix2 p q)
    = Cert.Stages.sageLayer (F := Ideal) (V c main_v24) (V c main_v1) (V c main_v25) (V c main_arg7) (V c main_v26)
        (((cfg1.win 5).blk t).view.emb (ValueIdx.ix2 p q))
  rw [pay_apply, sageLayer_apply]
  obtain ⟨e00, e01, e10, e11, e20, e21, e30, e40, e41, e50, e51⟩ := idx_facts t
  -- a row operand's block entry (p, k) is the array's entry (row of the result's entry, k)
  have hrow0 : ∀ k : Fin 128, iblk1 V c 0 t (ValueIdx.ix2 p k)
      = V c main_v24 (Cert.ReferenceIdeal.Read.lidx_main_v33 (((cfg1.win 5).blk t).view.emb (ValueIdx.ix2 p q)) k) := fun k => by
    show V c main_v24 (((cfg1.win 0).blk t).view.emb (ValueIdx.ix2 p k)) = _
    refine congrArg _ (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have hrow1 : ∀ k : Fin 128, iblk1 V c 1 t (ValueIdx.ix2 p k)
      = V c main_v1 (Cert.ReferenceIdeal.Read.lidx_main_v33 (((cfg1.win 5).blk t).view.emb (ValueIdx.ix2 p q)) k) := fun k => by
    show V c main_v1 (((cfg1.win 1).blk t).view.emb (ValueIdx.ix2 p k)) = _
    refine congrArg _ (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  -- a weight block is its whole array: entry (k, q) is the array's entry (k, column of the result's entry)
  have hwl : ∀ k : Fin 128, iblk1 V c 2 t (ValueIdx.ix2 k q)
      = V c main_v25 (Cert.ReferenceIdeal.Read.ridx_main_v33 (((cfg1.win 5).blk t).view.emb (ValueIdx.ix2 p q)) k) := fun k => by
    show V c main_v25 (((cfg1.win 2).blk t).view.emb (ValueIdx.ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  have hwr : ∀ k : Fin 128, iblk1 V c 4 t (ValueIdx.ix2 k q)
      = V c main_v26 (Cert.ReferenceIdeal.Read.ridx_main_v33 (((cfg1.win 5).blk t).view.emb (ValueIdx.ix2 p q)) k) := fun k => by
    show V c main_v26 (((cfg1.win 4).blk t).view.emb (ValueIdx.ix2 k q)) = _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega
  -- the bias block is the whole bias: entry q is the array's entry (column of the result's entry)
  have hb : iblk1 V c 3 t (ValueIdx.ix1 q)
      = V c main_arg7 (ValueIdx.ix1 (((cfg1.win 5).blk t).view.emb (ValueIdx.ix2 p q) 1)) := by
    show V c main_arg7 (((cfg1.win 3).blk t).view.emb (ValueIdx.ix1 q)) = _
    refine congrArg _ (funext fun a => Fin.ext ?_)
    match a with
    | ⟨0, _⟩ => show win1_3.index t (0 : Fin 1) * 128 + 1 * q.val = win1_5.index t (1 : Fin 2) * 128 + 1 * q.val; omega
  simp only [hrow0, hrow1, hwl, hwr, hb]

/-! ## The ten blocks fill the array -/

/-- An index of the array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v27).slice (win1_5.rect t)).set ↔ _
  rw [View.set_slice_whole, Rect.mem_set_unit]
  exact Iff.rfl

/-- Row r of the array is in the block of point r / 5000, which writes back. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 5000, (show (i 0).val / 5000 < 10 by omega)⟩, flush1_5 _, ?_⟩
  rw [mem_blk]
  obtain ⟨-, -, -, -, -, -, -, -, -, e50, e51⟩ := idx_facts ⟨(i 0).val / 5000, (show (i 0).val / 5000 < 10 by omega)⟩
  have e50' : win1_5.index ⟨(i 0).val / 5000, (show (i 0).val / 5000 < 10 by omega)⟩ (0 : Fin 2) = (i 0).val / 5000 := e50
  intro a
  match a with
  | ⟨0, _⟩ =>
    show win1_5.index _ (0 : Fin 2) * 5000 ≤ (i 0).val ∧ (i 0).val < win1_5.index _ (0 : Fin 2) * 5000 + 5000
    rw [e50']; omega
  | ⟨1, _⟩ =>
    show win1_5.index _ (1 : Fin 2) * 128 ≤ (i 1).val ∧ (i 1).val < win1_5.index _ (1 : Fin 2) * 128 + 128
    rw [e51]; omega

end Region1

/-- What SAGE region 1 leaves in its output array, for any contents at its entry: the SAGE layer of its five operands. -/
theorem region1_value (c : Dev nD) :
    (dat1 (F := Ideal) V c).arrAt 5 cfg1.N
      = Cert.Stages.sageLayer (F := Ideal) (V c main_v24) (V c main_v1) (V c main_v25) (V c main_arg7) (V c main_v26) := by
  exact (dat1 V c).arrAt_eq_of_cover 5 _ (fun t _ => Region1.flushed_eq V c t) Region1.cover

end Cert.KernelIdeal.RegionValue

end
-- ==== Proof.Region2.lean ====
/-
  The second SAGE region: the first one's body at the second layer's buffers. Each grid point takes 5000 rows of the mean aggregate and of the node features, the two
  128 × 128 weight matrices (already transposed) and the bias, and writes relu (mean · WlT + bl + h · WrT) for its rows.
  A row of the result depends only on the same row of the two row operands, so the ten blocks are the ten row bands
  of the whole-array layer.
-/
import proofs.«401539_j71674414235947_1_alg».proof.Proof.Gen.KernelIdeal.Frame
import proofs.«401539_j71674414235947_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open scoped BigOperators

namespace Region2

/-! ## The reference layer read at an index -/

/-- A row-by-column product of the reference: entry (r, c) is the sum over k of x (r, k) · w (k, c). -/
theorem refDot_apply (x : FVec Ideal Cert.ReferenceIdeal.S50000x128 .f32) (w : FVec Ideal Cert.ReferenceIdeal.S128x128 .f32)
    (i : Cert.ReferenceIdeal.S50000x128.Idx) :
    Host.dotGeneral Cert.ReferenceIdeal.dot_S50000x128_S128x128_S50000x128_1_0_0_1_n_n none x w i
      = ∑ k : Fin 128, x (Cert.ReferenceIdeal.Read.lidx_main_v33 i k) * w (Cert.ReferenceIdeal.Read.ridx_main_v33 i k) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = Cert.ReferenceIdeal.Read.lidx_main_v33 i k := funext fun a => Fin.ext (by
    match a with
    | ⟨0, _⟩ => exact Cert.ReferenceIdeal.Read.lhs_main_v33_0 _ _
    | ⟨1, _⟩ => exact (Cert.ReferenceIdeal.Read.lhs_main_v33_1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = Cert.ReferenceIdeal.Read.ridx_main_v33 i k := funext fun a => Fin.ext (by
    match a with
    | ⟨0, _⟩ => exact (Cert.ReferenceIdeal.Read.rhs_main_v33_0 _ _).trans hk
    | ⟨1, _⟩ => exact Cert.ReferenceIdeal.Read.rhs_main_v33_1 _ _)
  rw [el, er]

/-- The bias spread over the rows: entry (r, c) is b c. -/
theorem refBias_apply (b : FVec Ideal Cert.ReferenceIdeal.S128 .f32) (i : Cert.ReferenceIdeal.S50000x128.Idx) :
    broadcastInDim Cert.ReferenceIdeal.S50000x128 ![0, 1] Cert.ReferenceIdeal.Gen.bcast_S1x128_S50000x128_0_1
        (broadcastInDim Cert.ReferenceIdeal.S1x128 ![1] Cert.ReferenceIdeal.Gen.bcast_S128_S1x128_1 b) i
      = b (ValueIdx.ix1 (i 1)) := by
  rw [broadcastInDim_apply _ Cert.ReferenceIdeal.Gen.bcast_S1x128_S50000x128_0_1 _ i (ValueIdx.ix2 (⟨0, Nat.one_pos⟩ : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ Cert.ReferenceIdeal.Gen.bcast_S128_S1x128_1 b _ (ValueIdx.ix1 (i 1)) (fun a => match a with
    | ⟨0, _⟩ => by show (i 1).val = if (128 : Nat) = 1 then 0 else (i 1).val; rw [if_neg (by decide)])

/-- The zero spread over the whole array. -/
theorem refZero_apply (i : Cert.ReferenceIdeal.S50000x128.Idx) :
    broadcastInDim Cert.ReferenceIdeal.S50000x128 ![] Cert.ReferenceIdeal.Gen.bcast_S_S50000x128 (constant (F := Ideal) Cert.ReferenceIdeal.S_ .f32 0x00000000#32) i
      = Ideal.ofBits .f32 0x00000000#32 := by
  rw [broadcastInDim_apply _ Cert.ReferenceIdeal.Gen.bcast_S_S50000x128 _ i ValueIdx.ix0 (fun a => a.elim0)]
  rfl

/-- The SAGE layer at entry (r, c): relu of  Σₖ mean (r, k) · WlT (k, c)  +  bl c  +  Σₖ h (r, k) · WrT (k, c). -/
theorem sageLayer_apply (mean h : FVec Ideal Cert.ReferenceIdeal.S50000x128 .f32) (WlT : FVec Ideal Cert.ReferenceIdeal.S128x128 .f32)
    (bl : FVec Ideal Cert.ReferenceIdeal.S128 .f32) (WrT : FVec Ideal Cert.ReferenceIdeal.S128x128 .f32) (i : Cert.ReferenceIdeal.S50000x128.Idx) :
    Cert.Stages.sageLayer (F := Ideal) mean h WlT bl WrT i
      = max ((∑ k : Fin 128, mean (Cert.ReferenceIdeal.Read.lidx_main_v33 i k) * WlT (Cert.ReferenceIdeal.Read.ridx_main_v33 i k))
              + bl (ValueIdx.ix1 (i 1))
              + ∑ k : Fin 128, h (Cert.ReferenceIdeal.Read.lidx_main_v33 i k) * WrT (Cert.ReferenceIdeal.Read.ridx_main_v33 i k))
          (Ideal.ofBits .f32 0x00000000#32) := by
  unfold Cert.Stages.sageLayer
  rw [ValueIdx.maximumf_apply, ValueIdx.addf_apply, ValueIdx.addf_apply, refDot_apply, refDot_apply, refBias_apply, refZero_apply]

/-! ## The body's payload read at an index -/

/-- The operand indices of the block product at output entry j and contraction index q: rows from j, the contracted axis from q. -/
theorem blkDot_lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blkDot_lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem blkDot_rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem blkDot_rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator: entry (p, q) is the sum over k of x (p, k) · w (k, q). -/
theorem blkDot_apply {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ValueIdx.ix2 p q)
      = ∑ k : Fin 128, x (ValueIdx.ix2 p k) * w (ValueIdx.ix2 k q) := by
  show FloatOps.matmul dot_S5000x128_S128x128_S5000x128_1_0_0_1_n_n none x w (constant S5000x128 .f32 0x00000000#32) (ValueIdx.ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact blkDot_lhs_0 _ _
    | ⟨1, _⟩ => exact (blkDot_lhs_1 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (blkDot_rhs_0 _ _).trans hk
    | ⟨1, _⟩ => exact blkDot_rhs_1 _ _)
  rw [el, er]

/-- The bias as a one-row block spread over the rows of the block: entry (p, q) is b q. -/
theorem blkBias_apply (b : Vec Ideal S128 .f32) (p : Fin 5000) (q : Fin 128) :
    broadcastTo S5000x128 (shapeCast S1x128 b shapeCasts_S128_S1x128) broadcasts_S1x128_S5000x128 (ValueIdx.ix2 p q)
      = b (ValueIdx.ix1 q) := by
  rw [broadcastTo_apply _ broadcasts_S1x128_S5000x128 (ValueIdx.ix2 p q) (ValueIdx.ix2 (⟨0, Nat.one_pos⟩ : Fin 1) q) (fun a => match a with
    | ⟨0, _⟩ => by show 0 = if (1 : Nat) = 1 then 0 else _; rw [if_pos rfl]
    | ⟨1, _⟩ => by show q.val = if (128 : Nat) = 1 then 0 else _; rw [if_neg (by decide)]; rfl)]
  rw [shapeCast_addUnit_apply ![128] b]
  exact congrArg b (funext fun a => match a with | ⟨0, _⟩ => rfl)

/-- The payload at entry (p, q) of the block: relu of  Σₖ x (p, k) · wl (k, q)  +  b q  +  Σₖ y (p, k) · wr (k, q),
    the narrowing casts being the identity on ideal values. -/
theorem pay_apply (x y : Vec Ideal S5000x128 .f32) (wl wr : Vec Ideal S128x128 .f32) (b : Vec Ideal S128 .f32) (p : Fin 5000) (q : Fin 128) :
    k2_pay1 (F := Ideal) x y wl wr b (ValueIdx.ix2 p q)
      = max ((∑ k : Fin 128, x (ValueIdx.ix2 p k) * wl (ValueIdx.ix2 k q)) + b (ValueIdx.ix1 q)
              + ∑ k : Fin 128, y (ValueIdx.ix2 p k) * wr (ValueIdx.ix2 k q))
          (Ideal.ofBits .f32 0x00000000#32) := by
  unfold k2_pay1
  simp only [shapeCast_self]
  rw [ValueIdx.maximumf_apply, ValueIdx.addf_apply, ValueIdx.addf_apply, blkDot_apply, blkDot_apply, blkBias_apply, ValueIdx.broadcast_apply]
  rfl

/-! ## What a grid point writes back -/

theorem hz2 : (![0, 0] : Fin 2 → Nat) = fun _ => 0 := funext fun a => by fin_cases a <;> rfl
theorem hz1 : (![0] : Fin 1 → Nat) = fun _ => 0 := funext fun a => by fin_cases a; rfl

/-- The index maps over the ten grid points: the two row operands and the result take row band t, the weights and the
    bias their whole arrays. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem flushed_eq (c : Dev nD) (t : Fin cfg2.N) :
    (dat2 (F := Ideal) V c).flushed 5 t = ((cfg2.win 5).blk t).view.read (Elt Ideal)
      (Cert.Stages.sageLayer (F := Ideal) (V c main_v39) (V c main_v27) (V c main_v40) (V c main_arg10) (V c main_v41)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ValueIdx.ix2 p q := ⟨j 0, j 1, ValueIdx.eq_ix2 j⟩
  show k2_pay1 (iblk2 V c 0 t) (iblk2 V c 1 t) (iblk2 V c 2 t) (iblk2 V c 4 t) (iblk2 V c 3 t) (ValueIdx.ix2 p q)
    = Cert.Stages.sageLayer (F := Ideal) (V c main_v39) (V c main_v27) (V c main_v40) (V c main_arg10) (V c main_v41)
        (((cfg2.win 5).blk t).view.emb (ValueIdx.ix2 p q))
  rw [pay_apply, sageLayer_apply]
  obtain ⟨e00, e01, e10, e11, e20, e21, e30, e40, e41, e50, e51⟩ := idx_facts t
  -- a row operand's block entry (p, k) is the array's entry (row of the result's entry, k)
  have hrow0 : ∀ k : Fin 128, iblk2 V c 0 t (ValueIdx.ix2 p k)
      = V c main_v39 (Cert.ReferenceIdeal.Read.lidx_main_v33 (((cfg2.win 5).blk t).view.emb (ValueIdx.ix2 p q)) k) := fun k => by
    show V c main_v39 (((cfg2.win 0).blk t).view.emb (ValueIdx.ix2 p k)) = _
    refine congrArg _ (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have hrow1 : ∀ k : Fin 128, iblk2 V c 1 t (ValueIdx.ix2 p k)
      = V c main_v27 (Cert.ReferenceIdeal.Read.lidx_main_v33 (((cfg2.win 5).blk t).view.emb (ValueIdx.ix2 p q)) k) := fun k => by
    show V c main_v27 (((cfg2.win 1).blk t).view.emb (ValueIdx.ix2 p k)) = _
    refine congrArg _ (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  -- a weight block is its whole array: entry (k, q) is the array's entry (k, column of the result's entry)
  have hwl : ∀ k : Fin 128, iblk2 V c 2 t (ValueIdx.ix2 k q)
      = V c main_v40 (Cert.ReferenceIdeal.Read.ridx_main_v33 (((cfg2.win 5).blk t).view.emb (ValueIdx.ix2 p q)) k) := fun k => by
    show V c main_v40 (((cfg2.win 2).blk t).view.emb (ValueIdx.ix2 k q)) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  have hwr : ∀ k : Fin 128, iblk2 V c 4 t (ValueIdx.ix2 k q)
      = V c main_v41 (Cert.ReferenceIdeal.Read.ridx_main_v33 (((cfg2.win 5).blk t).view.emb (ValueIdx.ix2 p q)) k) := fun k => by
    show V c main_v41 (((cfg2.win 4).blk t).view.emb (ValueIdx.ix2 k q)) = _
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * q.val = win2_5.index t (1 : Fin 2) * 128 + 1 * q.val; omega
  -- the bias block is the whole bias: entry q is the array's entry (column of the result's entry)
  have hb : iblk2 V c 3 t (ValueIdx.ix1 q)
      = V c main_arg10 (ValueIdx.ix1 (((cfg2.win 5).blk t).view.emb (ValueIdx.ix2 p q) 1)) := by
    show V c main_arg10 (((cfg2.win 3).blk t).view.emb (ValueIdx.ix1 q)) = _
    refine congrArg _ (funext fun a => Fin.ext ?_)
    match a with
    | ⟨0, _⟩ => show win2_3.index t (0 : Fin 1) * 128 + 1 * q.val = win2_5.index t (1 : Fin 2) * 128 + 1 * q.val; omega
  simp only [hrow0, hrow1, hwl, hwr, hb]

/-! ## The ten blocks fill the array -/

/-- An index of the array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v42).slice (win2_5.rect t)).set ↔ _
  rw [View.set_slice_whole, Rect.mem_set_unit]
  exact Iff.rfl

/-- Row r of the array is in the block of point r / 5000, which writes back. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  refine ⟨⟨(i 0).val / 5000, (show (i 0).val / 5000 < 10 by omega)⟩, flush2_5 _, ?_⟩
  rw [mem_blk]
  obtain ⟨-, -, -, -, -, -, -, -, -, e50, e51⟩ := idx_facts ⟨(i 0).val / 5000, (show (i 0).val / 5000 < 10 by omega)⟩
  have e50' : win2_5.index ⟨(i 0).val / 5000, (show (i 0).val / 5000 < 10 by omega)⟩ (0 : Fin 2) = (i 0).val / 5000 := e50
  intro a
  match a with
  | ⟨0, _⟩ =>
    show win2_5.index _ (0 : Fin 2) * 5000 ≤ (i 0).val ∧ (i 0).val < win2_5.index _ (0 : Fin 2) * 5000 + 5000
    rw [e50']; omega
  | ⟨1, _⟩ =>
    show win2_5.index _ (1 : Fin 2) * 128 ≤ (i 1).val ∧ (i 1).val < win2_5.index _ (1 : Fin 2) * 128 + 128
    rw [e51]; omega

end Region2

/-- What SAGE region 2 leaves in its output array, for any contents at its entry: the SAGE layer of its five operands. -/
theorem region2_value (c : Dev nD) :
    (dat2 (F := Ideal) V c).arrAt 5 cfg2.N
      = Cert.Stages.sageLayer (F := Ideal) (V c main_v39) (V c main_v27) (V c main_v40) (V c main_arg10) (V c main_v41) := by
  exact (dat2 V c).arrAt_eq_of_cover 5 _ (fun t _ => Region2.flushed_eq V c t) Region2.cover

end Cert.KernelIdeal.RegionValue

end
-- ==== Proof.Region3.lean ====
/-
  The output region: one grid point, whole arrays. It writes p · WT + b for the 64 pooled rows.
-/
import proofs.«401539_j71674414235947_1_alg».proof.Proof.Gen.KernelIdeal.Frame
import proofs.«401539_j71674414235947_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

namespace OutputRegion

open Idealize.ShloMosaic.ValueIdx

/-! ## The reference side, read at an index -/

/-- The output layer at an index: row `i 0` of `p` against column `i 1` of `WT`, plus the bias at the column. -/
theorem outLayer_apply (p : FVec Ideal Cert.ReferenceIdeal.S64x128 .f32) (WT : FVec Ideal Cert.ReferenceIdeal.S128x10 .f32)
    (b : FVec Ideal Cert.ReferenceIdeal.S10 .f32) (i : Cert.ReferenceIdeal.S64x10.Idx) :
    Cert.Stages.outLayer (F := Ideal) p WT b i
      = (∑ k : Fin 128, p (Cert.ReferenceIdeal.Read.lidx_main_v82 i k) * WT (Cert.ReferenceIdeal.Read.ridx_main_v82 i k))
        + b (Cert.ReferenceIdeal.Read.idx_main_v83 (Cert.ReferenceIdeal.Read.idx_main_v84 i)) := by
  unfold Cert.Stages.outLayer
  rw [addf_apply]
  congr 1
  · -- the product: the contraction's one axis re-indexed by its coordinate
    simp only [Host.dotGeneral]
    rw [Ideal.dotGeneral_apply, ← Equiv.sum_comp (ValueIdx.contrEquiv1 Cert.ReferenceIdeal.dot_S64x128_S128x10_S64x10_1_0_0_1_n_n 128 rfl rfl).symm]
    refine Finset.sum_congr rfl fun k _ => ?_
    have hk := ValueIdx.contrEquiv1_symm_val Cert.ReferenceIdeal.dot_S64x128_S128x10_S64x10_1_0_0_1_n_n 128 rfl rfl k
    have el : Cert.ReferenceIdeal.dot_S64x128_S128x10_S64x10_1_0_0_1_n_n.lhsIdx i ((ValueIdx.contrEquiv1 Cert.ReferenceIdeal.dot_S64x128_S128x10_S64x10_1_0_0_1_n_n 128 rfl rfl).symm k) = Cert.ReferenceIdeal.Read.lidx_main_v82 i k := funext fun a => Fin.ext (by
      match a with
      | ⟨0, _⟩ => exact Cert.ReferenceIdeal.Read.lhs_main_v82_0 _ _
      | ⟨1, _⟩ => exact (Cert.ReferenceIdeal.Read.lhs_main_v82_1 _ _).trans hk)
    have er : Cert.ReferenceIdeal.dot_S64x128_S128x10_S64x10_1_0_0_1_n_n.rhsIdx i ((ValueIdx.contrEquiv1 Cert.ReferenceIdeal.dot_S64x128_S128x10_S64x10_1_0_0_1_n_n 128 rfl rfl).symm k) = Cert.ReferenceIdeal.Read.ridx_main_v82 i k := funext fun a => Fin.ext (by
      match a with
      | ⟨0, _⟩ => exact (Cert.ReferenceIdeal.Read.rhs_main_v82_0 _ _).trans hk
      | ⟨1, _⟩ => exact Cert.ReferenceIdeal.Read.rhs_main_v82_1 _ _)
    rw [el, er]
  · -- the bias: broadcast along the rows, through the unit row axis
    have h84 := Cert.ReferenceIdeal.Read.val_main_v84_apply (F := Ideal) b i
    have h83 := Cert.ReferenceIdeal.Read.val_main_v83_apply (F := Ideal) b (Cert.ReferenceIdeal.Read.idx_main_v84 i)
    exact h84.trans h83

/-! ## The kernel's payload, read at an index -/

/-- The product's left operand is read at row `i 0` … -/
theorem lhs_axis0 (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
/-- … and at the contraction's coordinate on its columns; -/
theorem lhs_axis1 (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
/-- the right operand at the contraction's coordinate on its rows … -/
theorem rhs_axis0 (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
/-- … and at column `i 1`. -/
theorem rhs_axis1 (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-- The body's payload at row `p`, column `q`: the format changes and same-shape casts are the identity on
    extended reals, the product into the zero accumulator is the sum over the contraction, the bias is read at the column. -/
theorem pay_apply (x0 : Vec Ideal S64x128 .f32) (x1 : Vec Ideal S128x10 .f32) (x2 : Vec Ideal S10 .f32)
    (p : Fin 64) (q : Fin 10) :
    k3_pay1 (F := Ideal) x0 x1 x2 (ix2 p q) = (∑ k : Fin 128, x0 (ix2 p k) * x1 (ix2 k q)) + x2 (ix1 q) := by
  unfold k3_pay1
  rw [shapeCast_self, shapeCast_self, addf_apply]
  congr 1
  · simp only [matmul]
    rw [Ideal.matmul_constant_zero_apply, ← Equiv.sum_comp (ValueIdx.contrEquiv1 dot_S64x128_S128x10_S64x10_1_0_0_1_n_n 128 rfl rfl).symm]
    refine Finset.sum_congr rfl fun k _ => ?_
    have hk := ValueIdx.contrEquiv1_symm_val dot_S64x128_S128x10_S64x10_1_0_0_1_n_n 128 rfl rfl k
    have el : dot_S64x128_S128x10_S64x10_1_0_0_1_n_n.lhsIdx (ix2 p q) ((ValueIdx.contrEquiv1 dot_S64x128_S128x10_S64x10_1_0_0_1_n_n 128 rfl rfl).symm k) = ix2 p k := funext fun a => Fin.ext (by
      match a with
      | ⟨0, _⟩ => exact lhs_axis0 _ _
      | ⟨1, _⟩ => exact (lhs_axis1 _ _).trans hk)
    have er : dot_S64x128_S128x10_S64x10_1_0_0_1_n_n.rhsIdx (ix2 p q) ((ValueIdx.contrEquiv1 dot_S64x128_S128x10_S64x10_1_0_0_1_n_n 128 rfl rfl).symm k) = ix2 k q := funext fun a => Fin.ext (by
      match a with
      | ⟨0, _⟩ => exact (rhs_axis0 _ _).trans hk
      | ⟨1, _⟩ => exact rhs_axis1 _ _)
    rw [truncf_apply, truncf_apply, el, er]
  · rw [broadcastTo_apply _ broadcasts_S1x10_S64x10 (ix2 p q) (ix2 (⟨0, Nat.one_pos⟩ : Fin 1) q) (fun a => match a with
      | ⟨0, _⟩ => by show 0 = if (1 : Nat) = 1 then 0 else _; rw [if_pos rfl]
      | ⟨1, _⟩ => by show q.val = if (10 : Nat) = 1 then 0 else q.val; rw [if_neg (by decide)])]
    rw [shapeCast_addUnit_apply]
    exact congrArg x2 (funext fun a => match a with | ⟨0, _⟩ => rfl)

/-! ## What the one grid point writes back -/

theorem hz2 : (![0, 0] : Fin 2 → Nat) = fun _ => 0 := funext fun a => by fin_cases a <;> rfl
theorem hz1 : (![0] : Fin 1 → Nat) = fun _ => 0 := funext fun a => by fin_cases a; rfl

/-- Every window's block index is zero on every axis, at every grid point (decided over the one point). -/
theorem idx_zero : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0 :=
  (by decide +kernel : ∀ t : Fin grid3.N, _)

/-! ## The one block covers the array -/

/-- An index of the output array is in point `t`'s block iff each coordinate is in the block's range on its axis. -/
theorem mem_blk3 (t : Fin cfg3.N) (i : S64x10.Idx) :
    i ∈ ((cfg3.win 3).blk t).view.set ↔ ∀ a : Fin 2, win3_3.index t a * S64x10.size a ≤ (i a).val ∧ (i a).val < win3_3.index t a * S64x10.size a + S64x10.size a := by
  show i ∈ ((View.whole main_v56).slice (win3_3.rect t)).set ↔ _
  rw [View.set_slice_whole, Rect.mem_set_unit]
  exact Iff.rfl

/-- Every index of the output array lies in the one grid point's block, which is written back. -/
theorem cover3 (i : S64x10.Idx) :
    ∃ t : Fin cfg3.N, (cfg3.win 3).flush t = true ∧ i ∈ ((cfg3.win 3).blk t).view.set := by
  refine ⟨⟨0, by decide⟩, flush3_3 _, ?_⟩
  rw [mem_blk3]
  obtain ⟨-, -, -, -, -, e30, e31⟩ := idx_zero ⟨0, by decide⟩
  have hi0 : (i 0).val < 64 := (i 0).isLt
  have hi1 : (i 1).val < 10 := (i 1).isLt
  intro a
  match a with
  | ⟨0, _⟩ => show win3_3.index ⟨0, by decide⟩ (0 : Fin 2) * 64 ≤ (i 0).val ∧ (i 0).val < win3_3.index ⟨0, by decide⟩ (0 : Fin 2) * 64 + 64; omega
  | ⟨1, _⟩ => show win3_3.index ⟨0, by decide⟩ (1 : Fin 2) * 10 ≤ (i 1).val ∧ (i 1).val < win3_3.index ⟨0, by decide⟩ (1 : Fin 2) * 10 + 10; omega

/-- What the grid point writes back is its block of the output layer of the three operand arrays: the payload at
    row `p`, column `q` reads the operands' blocks, each block is its whole array (block index zero on every axis). -/
theorem flushed3 (c : Dev nD) (t : Fin cfg3.N) :
    (dat3 (F := Ideal) V c).flushed 3 t
      = ((cfg3.win 3).blk t).view.read (Elt Ideal) (Cert.Stages.outLayer (F := Ideal) (V c main_v54) (V c main_v55) (V c main_arg13)) := by
  show (cfg3.win 3).cut (grid3.coords t) ((dat3 V c).after 3 t) = _
  rw [after3_3]
  unfold out3_3
  rw [View.canon_unit_zero hz2]
  simp only [View.ld_unit_zero (S := S64x128) hz2, View.ld_unit_zero (S := S128x10) hz2, View.ld_unit_zero (S := S10) hz1]
  funext j
  obtain ⟨p, q, rfl⟩ : ∃ (p : Fin 64) (q : Fin 10), j = ix2 p q := ⟨j 0, j 1, eq_ix2 j⟩
  show k3_pay1 (iblk3 V c 0 t) (iblk3 V c 1 t) (iblk3 V c 2 t) (ix2 p q)
    = Cert.Stages.outLayer (F := Ideal) (V c main_v54) (V c main_v55) (V c main_arg13) (((cfg3.win 3).blk t).view.emb (ix2 p q))
  rw [pay_apply, outLayer_apply]
  obtain ⟨e00, e01, e10, e11, e20, e30, e31⟩ := idx_zero t
  have h0 : ∀ k : Fin 128, iblk3 V c 0 t (ix2 p k)
      = V c main_v54 (Cert.ReferenceIdeal.Read.lidx_main_v82 (((cfg3.win 3).blk t).view.emb (ix2 p q)) k) := fun k => by
    show V c main_v54 (((cfg3.win 0).blk t).view.emb (ix2 p k)) = _
    refine congrArg (V c main_v54) (funext fun a => Fin.ext ?_)
    match a with
    | ⟨0, _⟩ => show win3_0.index t (0 : Fin 2) * 64 + 1 * p.val = win3_3.index t (0 : Fin 2) * 64 + 1 * p.val; omega
    | ⟨1, _⟩ => show win3_0.index t (1 : Fin 2) * 128 + 1 * k.val = k.val; omega
  have h1 : ∀ k : Fin 128, iblk3 V c 1 t (ix2 k q)
      = V c main_v55 (Cert.ReferenceIdeal.Read.ridx_main_v82 (((cfg3.win 3).blk t).view.emb (ix2 p q)) k) := fun k => by
    show V c main_v55 (((cfg3.win 1).blk t).view.emb (ix2 k q)) = _
    refine congrArg (V c main_v55) (funext fun a => Fin.ext ?_)
    match a with
    | ⟨0, _⟩ => show win3_1.index t (0 : Fin 2) * 128 + 1 * k.val = k.val; omega
    | ⟨1, _⟩ => show win3_1.index t (1 : Fin 2) * 10 + 1 * q.val = win3_3.index t (1 : Fin 2) * 10 + 1 * q.val; omega
  have h2 : iblk3 V c 2 t (ix1 q)
      = V c main_arg13 (Cert.ReferenceIdeal.Read.idx_main_v83 (Cert.ReferenceIdeal.Read.idx_main_v84 (((cfg3.win 3).blk t).view.emb (ix2 p q)))) := by
    show V c main_arg13 (((cfg3.win 2).blk t).view.emb (ix1 q)) = _
    refine congrArg (V c main_arg13) (funext fun a => Fin.ext ?_)
    match a with
    | ⟨0, _⟩ => show win3_2.index t (0 : Fin 1) * 10 + 1 * q.val = win3_3.index t (1 : Fin 2) * 10 + 1 * q.val; omega
  rw [h2]
  exact congrArg (· + _) (Finset.sum_congr rfl fun k _ => by rw [h0 k, h1 k])

end OutputRegion

/-- What the output region leaves in its output array, for any contents at its entry: the output layer of its three operands. -/
theorem region3_value (c : Dev nD) :
    (dat3 (F := Ideal) V c).arrAt 3 cfg3.N
      = Cert.Stages.outLayer (F := Ideal) (V c main_v54) (V c main_v55) (V c main_arg13) := by
  exact (dat3 (F := Ideal) V c).arrAt_eq_of_cover 3 _ (fun t _ => OutputRegion.flushed3 V c t) OutputRegion.cover3

end Cert.KernelIdeal.RegionValue

end
-- ==== Proof.Fold.lean ====
/-
  The kernel's result buffer, read back through the seven segments of @main. Between the regions the kernel's
  program applies the very host operations the reference applies (the edge gather, the two scatter-adds, the divisions,
  the transposes), so at every boundary the buffers the next region reads hold the reference's stages of the
  arguments; each region's value lemma carries that across the region.
-/
import proofs.«401539_j71674414235947_1_alg».proof.Proof.Gen.KernelIdeal.Frame
import proofs.«401539_j71674414235947_1_alg».proof.Proof.Stages
import proofs.«401539_j71674414235947_1_alg».proof.Proof.Range
import proofs.«401539_j71674414235947_1_alg».proof.Proof.Region0
import proofs.«401539_j71674414235947_1_alg».proof.Proof.Region1
import proofs.«401539_j71674414235947_1_alg».proof.Proof.Region2
import proofs.«401539_j71674414235947_1_alg».proof.Proof.Region3
import Idealize.ShloMosaic.Lib.StableHlo.Run

set_option maxRecDepth 16384

noncomputable section

namespace Cert.KernelIdeal.Fold

open Cert.KernelIdeal Cert.KernelIdeal.Gen Cert.KernelIdeal.RegionValue Idealize.ShloMosaic Idealize.ShloMosaic.TcCoe Idealize.SL.Sem
open Idealize.ShloMosaic.StableHlo (after_cons after_nil)
open Cert.ReferenceIdeal.Read (val_main_v7 val_main_v8 val_main_v10 val_main_v12 val_main_v29 val_main_v31 val_main_v32 val_main_v37 val_main_v40 val_main_v59 val_main_v60 val_main_v65 val_main_v68 val_main_v80 val_main_v81 val_main_v85)

variable (m : (ℓ : Loc nD τ sig) → Buf (Elt Ideal) ℓ) (ρ : Dev nD → PrngReg)

/-! ## After the embedding region -/

/-- The embedding rows: the reference's row lookup. -/
theorem emb_rows (c : Dev nD) (hst : Cert.Stages.StInRange (m ((c : Thread nD τ).loc main_arg3))) :
    W1 m ρ c (Proc.devRef .tc main_v0) = val_main_v7 (F := Ideal) (m ((c : Thread nD τ).loc main_arg3)) (m ((c : Thread nD τ).loc main_arg5)) :=
  (W1_arr m ρ c 2).trans (region0_value (V0 m ρ) c hst)

/-- An argument the embedding region does not write is as launched. -/
theorem W1_arg0 (c : Dev nD) : W1 m ρ c (Proc.devRef .tc main_arg0) = (m ((c : Thread nD τ).loc main_arg0)) := W1_of_ne m ρ c main_arg0 (by decide)
theorem W1_arg1 (c : Dev nD) : W1 m ρ c (Proc.devRef .tc main_arg1) = (m ((c : Thread nD τ).loc main_arg1)) := W1_of_ne m ρ c main_arg1 (by decide)
theorem W1_arg6 (c : Dev nD) : W1 m ρ c (Proc.devRef .tc main_arg6) = (m ((c : Thread nD τ).loc main_arg6)) := W1_of_ne m ρ c main_arg6 (by decide)
theorem W1_arg7 (c : Dev nD) : W1 m ρ c (Proc.devRef .tc main_arg7) = (m ((c : Thread nD τ).loc main_arg7)) := W1_of_ne m ρ c main_arg7 (by decide)
theorem W1_arg8 (c : Dev nD) : W1 m ρ c (Proc.devRef .tc main_arg8) = (m ((c : Thread nD τ).loc main_arg8)) := W1_of_ne m ρ c main_arg8 (by decide)

/-! ## After the first host stretch: the node features, the first mean aggregate, the transposed weights -/

/-- The node features: the inputs beside the embedding rows. -/
theorem feat0 (c : Dev nD) (hst : Cert.Stages.StInRange (m ((c : Thread nD τ).loc main_arg3))) :
    W2 m ρ c (Proc.devRef .tc main_v1) = val_main_v8 (F := Ideal) (m ((c : Thread nD τ).loc main_arg0)) (m ((c : Thread nD τ).loc main_arg3)) (m ((c : Thread nD τ).loc main_arg5)) := by
  show StableHlo.after hostOps1 (W1 m ρ c) (Proc.devRef .tc main_v1) = _
  after_results
  rw [emb_rows m ρ c hst, W1_arg0 m ρ c]
  rfl

set_option hygiene false in
/-- A buffer the first host stretch does not write, read after it. -/
local macro "through_stretch1" : tactic =>
  `(tactic| (show StableHlo.after hostOps1 (W1 m ρ c) _ = _; after_results))
set_option hygiene false in
local macro "through_stretch2" : tactic =>
  `(tactic| (show StableHlo.after hostOps2 (W3 m ρ c) _ = _; after_results))
set_option hygiene false in
local macro "through_stretch3" : tactic =>
  `(tactic| (show StableHlo.after hostOps3 (W5 m ρ c) _ = _; after_results))

/-- The edges' source indices. -/
theorem src_idx (c : Dev nD) : W2 m ρ c (Proc.devRef .tc main_v3) = val_main_v10 (F := Ideal) (m ((c : Thread nD τ).loc main_arg1)) := by
  through_stretch1; rw [W1_arg1 m ρ c]; rfl
/-- The edges' destination indices. -/
theorem dst_idx (c : Dev nD) : W2 m ρ c (Proc.devRef .tc main_v5) = val_main_v12 (F := Ideal) (m ((c : Thread nD τ).loc main_arg1)) := by
  through_stretch1; rw [W1_arg1 m ρ c]; rfl
/-- The neighbour counts, at least one, as a column. -/
theorem cnt_col (c : Dev nD) : W2 m ρ c (Proc.devRef .tc main_v12) = val_main_v29 (F := Ideal) (m ((c : Thread nD τ).loc main_arg1)) := by
  through_stretch1; rw [W1_arg1 m ρ c]; rfl
set_option maxHeartbeats 8000000 in
/-- The first mean aggregate of the neighbours' features. -/
theorem mean1 (c : Dev nD) (hst : Cert.Stages.StInRange (m ((c : Thread nD τ).loc main_arg3))) :
    W2 m ρ c (Proc.devRef .tc main_v24) = val_main_v31 (F := Ideal) (m ((c : Thread nD τ).loc main_arg0)) (m ((c : Thread nD τ).loc main_arg1)) (m ((c : Thread nD τ).loc main_arg3)) (m ((c : Thread nD τ).loc main_arg5)) := by
  show StableHlo.after hostOps1 (W1 m ρ c) _ = _
  after_results_simp
  rw [emb_rows m ρ c hst, W1_arg0 m ρ c, W1_arg1 m ρ c]
  rfl
/-- The first layer's weights, transposed. -/
theorem wl1T (c : Dev nD) : W2 m ρ c (Proc.devRef .tc main_v25) = val_main_v32 (F := Ideal) (m ((c : Thread nD τ).loc main_arg6)) := by
  through_stretch1; rw [W1_arg6 m ρ c]; rfl
theorem wr1T (c : Dev nD) : W2 m ρ c (Proc.devRef .tc main_v26) = val_main_v37 (F := Ideal) (m ((c : Thread nD τ).loc main_arg8)) := by
  through_stretch1; rw [W1_arg8 m ρ c]; rfl

/-- Argument 7 is written by nothing before boundary 2. -/
theorem W2_arg7 (c : Dev nD) : W2 m ρ c (Proc.devRef .tc main_arg7) = (m ((c : Thread nD τ).loc main_arg7)) :=
  calc W2 m ρ c (Proc.devRef .tc main_arg7)
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := W1_of_ne m ρ c main_arg7 (by decide)
    _ = (m ((c : Thread nD τ).loc main_arg7)) := rfl

/-- Argument 9 is written by nothing before boundary 2. -/
theorem W2_arg9 (c : Dev nD) : W2 m ρ c (Proc.devRef .tc main_arg9) = (m ((c : Thread nD τ).loc main_arg9)) :=
  calc W2 m ρ c (Proc.devRef .tc main_arg9)
    _ = W1 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := W1_of_ne m ρ c main_arg9 (by decide)
    _ = (m ((c : Thread nD τ).loc main_arg9)) := rfl

/-- Argument 10 is written by nothing before boundary 2. -/
theorem W2_arg10 (c : Dev nD) : W2 m ρ c (Proc.devRef .tc main_arg10) = (m ((c : Thread nD τ).loc main_arg10)) :=
  calc W2 m ρ c (Proc.devRef .tc main_arg10)
    _ = W1 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := W1_of_ne m ρ c main_arg10 (by decide)
    _ = (m ((c : Thread nD τ).loc main_arg10)) := rfl

/-- Argument 11 is written by nothing before boundary 2. -/
theorem W2_arg11 (c : Dev nD) : W2 m ρ c (Proc.devRef .tc main_arg11) = (m ((c : Thread nD τ).loc main_arg11)) :=
  calc W2 m ρ c (Proc.devRef .tc main_arg11)
    _ = W1 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := W1_of_ne m ρ c main_arg11 (by decide)
    _ = (m ((c : Thread nD τ).loc main_arg11)) := rfl

/-- Argument 4 is written by nothing before boundary 2. -/
theorem W2_arg4 (c : Dev nD) : W2 m ρ c (Proc.devRef .tc main_arg4) = (m ((c : Thread nD τ).loc main_arg4)) :=
  calc W2 m ρ c (Proc.devRef .tc main_arg4)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = (m ((c : Thread nD τ).loc main_arg4)) := rfl

/-- Argument 12 is written by nothing before boundary 2. -/
theorem W2_arg12 (c : Dev nD) : W2 m ρ c (Proc.devRef .tc main_arg12) = (m ((c : Thread nD τ).loc main_arg12)) :=
  calc W2 m ρ c (Proc.devRef .tc main_arg12)
    _ = W1 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := W1_of_ne m ρ c main_arg12 (by decide)
    _ = (m ((c : Thread nD τ).loc main_arg12)) := rfl

/-- Argument 13 is written by nothing before boundary 2. -/
theorem W2_arg13 (c : Dev nD) : W2 m ρ c (Proc.devRef .tc main_arg13) = (m ((c : Thread nD τ).loc main_arg13)) :=
  calc W2 m ρ c (Proc.devRef .tc main_arg13)
    _ = W1 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := W1_of_ne m ρ c main_arg13 (by decide)
    _ = (m ((c : Thread nD τ).loc main_arg13)) := rfl

/-! ## After the first SAGE region -/

/-- The first hidden layer. -/
theorem hid1_W3 (c : Dev nD) (hst : Cert.Stages.StInRange (m ((c : Thread nD τ).loc main_arg3))) :
    W3 m ρ c (Proc.devRef .tc main_v27) = val_main_v40 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) := by
  rw [Cert.Stages.v40_split]
  refine (W3_arr m ρ c 5).trans ((region1_value (V2 m ρ) c).trans ?_)
  have e0 : V2 m ρ c main_v24 = _ := mean1 m ρ c hst
  have e1 : V2 m ρ c main_v1 = _ := feat0 m ρ c hst
  have e2 : V2 m ρ c main_v25 = _ := wl1T m ρ c
  have e3 : V2 m ρ c main_arg7 = _ := W2_arg7 m ρ c
  have e4 : V2 m ρ c main_v26 = _ := wr1T m ρ c
  rw [e0, e1, e2, e3, e4]

theorem W3_src (c : Dev nD) : W3 m ρ c (Proc.devRef .tc main_v3) = val_main_v10 (F := Ideal) (m ((c : Thread nD τ).loc main_arg1)) := (W3_of_ne m ρ c main_v3 (by decide)).trans (src_idx m ρ c)
theorem W3_dst (c : Dev nD) : W3 m ρ c (Proc.devRef .tc main_v5) = val_main_v12 (F := Ideal) (m ((c : Thread nD τ).loc main_arg1)) := (W3_of_ne m ρ c main_v5 (by decide)).trans (dst_idx m ρ c)
theorem W3_cnt (c : Dev nD) : W3 m ρ c (Proc.devRef .tc main_v12) = val_main_v29 (F := Ideal) (m ((c : Thread nD τ).loc main_arg1)) := (W3_of_ne m ρ c main_v12 (by decide)).trans (cnt_col m ρ c)
theorem W3_arg9 (c : Dev nD) : W3 m ρ c (Proc.devRef .tc main_arg9) = (m ((c : Thread nD τ).loc main_arg9)) := (W3_of_ne m ρ c main_arg9 (by decide)).trans (W2_arg9 m ρ c)
theorem W3_arg10 (c : Dev nD) : W3 m ρ c (Proc.devRef .tc main_arg10) = (m ((c : Thread nD τ).loc main_arg10)) := (W3_of_ne m ρ c main_arg10 (by decide)).trans (W2_arg10 m ρ c)
theorem W3_arg11 (c : Dev nD) : W3 m ρ c (Proc.devRef .tc main_arg11) = (m ((c : Thread nD τ).loc main_arg11)) := (W3_of_ne m ρ c main_arg11 (by decide)).trans (W2_arg11 m ρ c)
theorem W3_arg4 (c : Dev nD) : W3 m ρ c (Proc.devRef .tc main_arg4) = (m ((c : Thread nD τ).loc main_arg4)) := (W3_of_ne m ρ c main_arg4 (by decide)).trans (W2_arg4 m ρ c)
theorem W3_arg12 (c : Dev nD) : W3 m ρ c (Proc.devRef .tc main_arg12) = (m ((c : Thread nD τ).loc main_arg12)) := (W3_of_ne m ρ c main_arg12 (by decide)).trans (W2_arg12 m ρ c)
theorem W3_arg13 (c : Dev nD) : W3 m ρ c (Proc.devRef .tc main_arg13) = (m ((c : Thread nD τ).loc main_arg13)) := (W3_of_ne m ρ c main_arg13 (by decide)).trans (W2_arg13 m ρ c)

/-! ## After the second host stretch -/

set_option maxHeartbeats 8000000 in
/-- The second mean aggregate, of the first hidden layer over the same edges, divided by the same counts. -/
theorem mean2 (c : Dev nD) (hst : Cert.Stages.StInRange (m ((c : Thread nD τ).loc main_arg3))) :
    W4 m ρ c (Proc.devRef .tc main_v39) = val_main_v59 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) := by
  show StableHlo.after hostOps2 (W3 m ρ c) _ = _
  after_results_simp
  rw [hid1_W3 m ρ c hst, W3_src m ρ c, W3_dst m ρ c, W3_cnt m ρ c]
  rfl
/-- The first hidden layer is still there. -/
theorem hid1_W4 (c : Dev nD) (hst : Cert.Stages.StInRange (m ((c : Thread nD τ).loc main_arg3))) :
    W4 m ρ c (Proc.devRef .tc main_v27) = val_main_v40 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) := by
  through_stretch2; exact hid1_W3 m ρ c hst
theorem wl2T (c : Dev nD) : W4 m ρ c (Proc.devRef .tc main_v40) = val_main_v60 (F := Ideal) (m ((c : Thread nD τ).loc main_arg9)) := by
  through_stretch2; rw [W3_arg9 m ρ c]; rfl
theorem wr2T (c : Dev nD) : W4 m ρ c (Proc.devRef .tc main_v41) = val_main_v65 (F := Ideal) (m ((c : Thread nD τ).loc main_arg11)) := by
  through_stretch2; rw [W3_arg11 m ρ c]; rfl
theorem W4_arg10 (c : Dev nD) : W4 m ρ c (Proc.devRef .tc main_arg10) = (m ((c : Thread nD τ).loc main_arg10)) := by
  through_stretch2; exact W3_arg10 m ρ c
theorem W4_arg4 (c : Dev nD) : W4 m ρ c (Proc.devRef .tc main_arg4) = (m ((c : Thread nD τ).loc main_arg4)) := by
  through_stretch2; exact W3_arg4 m ρ c
theorem W4_arg12 (c : Dev nD) : W4 m ρ c (Proc.devRef .tc main_arg12) = (m ((c : Thread nD τ).loc main_arg12)) := by
  through_stretch2; exact W3_arg12 m ρ c
theorem W4_arg13 (c : Dev nD) : W4 m ρ c (Proc.devRef .tc main_arg13) = (m ((c : Thread nD τ).loc main_arg13)) := by
  through_stretch2; exact W3_arg13 m ρ c

/-! ## After the second SAGE region -/

/-- The second hidden layer. -/
theorem hid2_W5 (c : Dev nD) (hst : Cert.Stages.StInRange (m ((c : Thread nD τ).loc main_arg3))) :
    W5 m ρ c (Proc.devRef .tc main_v42) = val_main_v68 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Cert.Stages.v68_split]
  refine (W5_arr m ρ c 5).trans ((region2_value (V4 m ρ) c).trans ?_)
  have e0 : V4 m ρ c main_v39 = _ := mean2 m ρ c hst
  have e1 : V4 m ρ c main_v27 = _ := hid1_W4 m ρ c hst
  have e2 : V4 m ρ c main_v40 = _ := wl2T m ρ c
  have e3 : V4 m ρ c main_arg10 = _ := W4_arg10 m ρ c
  have e4 : V4 m ρ c main_v41 = _ := wr2T m ρ c
  rw [e0, e1, e2, e3, e4]
theorem W5_arg4 (c : Dev nD) : W5 m ρ c (Proc.devRef .tc main_arg4) = (m ((c : Thread nD τ).loc main_arg4)) := (W5_of_ne m ρ c main_arg4 (by decide)).trans (W4_arg4 m ρ c)
theorem W5_arg12 (c : Dev nD) : W5 m ρ c (Proc.devRef .tc main_arg12) = (m ((c : Thread nD τ).loc main_arg12)) := (W5_of_ne m ρ c main_arg12 (by decide)).trans (W4_arg12 m ρ c)
theorem W5_arg13 (c : Dev nD) : W5 m ρ c (Proc.devRef .tc main_arg13) = (m ((c : Thread nD τ).loc main_arg13)) := (W5_of_ne m ρ c main_arg13 (by decide)).trans (W4_arg13 m ρ c)

/-! ## After the third host stretch -/

set_option maxHeartbeats 8000000 in
/-- The graph-wise mean of the second hidden layer. -/
theorem pooled (c : Dev nD) (hst : Cert.Stages.StInRange (m ((c : Thread nD τ).loc main_arg3))) :
    W6 m ρ c (Proc.devRef .tc main_v54) = val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps3 (W5 m ρ c) _ = _
  after_results_simp
  rw [hid2_W5 m ρ c hst, W5_arg4 m ρ c]
  rfl
theorem woutT (c : Dev nD) : W6 m ρ c (Proc.devRef .tc main_v55) = val_main_v81 (F := Ideal) (m ((c : Thread nD τ).loc main_arg12)) := by
  through_stretch3; rw [W5_arg12 m ρ c]; rfl
theorem W6_arg13 (c : Dev nD) : W6 m ρ c (Proc.devRef .tc main_arg13) = (m ((c : Thread nD τ).loc main_arg13)) := by
  through_stretch3; exact W5_arg13 m ρ c

/-! ## After the output region -/

/-- The result buffer after the last region holds the reference's result term of the launch contents of the arguments. -/
theorem result_eq (c : Dev nD) (hst : Cert.Stages.StInRange (m ((c : Thread nD τ).loc main_arg3))) :
    W7 (F := Ideal) m ρ c (Proc.devRef .tc main_v56)
      = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [Cert.Stages.v85_split]
  refine (W7_arr m ρ c 3).trans ((region3_value (V6 m ρ) c).trans ?_)
  have e0 : V6 m ρ c main_v54 = _ := pooled m ρ c hst
  have e1 : V6 m ρ c main_v55 = _ := woutT m ρ c
  have e2 : V6 m ρ c main_arg13 = _ := W6_arg13 m ρ c
  rw [e0, e1, e2]

end Cert.KernelIdeal.Fold

end
-- ==== Proof.PreRange.lean ====
/-
  The precondition's last conjunct, read back: jnp.all ((st ≥ 0) & (st < 256)) being true says every entry of the
  node-type column lies in [0, 256) as a signed integer.
-/
import proofs.«401539_j71674414235947_1_alg».proof.Defs
import proofs.«401539_j71674414235947_1_alg».proof.Proof.Gen.Pre_finite_inputs
import proofs.«401539_j71674414235947_1_alg».proof.Proof.Gen.KernelIdeal
import proofs.«401539_j71674414235947_1_alg».proof.Proof.Range
import Idealize.ShloMosaic.Lib.ReduceAll
import Idealize.ShloMosaic.Lib.StableHlo.Predicate

namespace Cert.Stages

open Idealize.ShloMosaic Idealize.ShloMosaic.TcCoe Idealize.SL.Sem

/-- One entry of the column. Both word compares of the entry, against the scalar 0 and the scalar 256 broadcast over the
    column, are true: the first reads 0 ≤ x i, the second x i < 256, each as signed integers. -/
theorem st_entry_bounds (x : IVec ⟨2, ![50000, 1]⟩ 32)
    (hb : (⟨0, ![]⟩ : Shape).BroadcastsInDim (⟨2, ![50000, 1]⟩ : Shape) (![] : Fin 0 → Fin 2))
    (i : (⟨2, ![50000, 1]⟩ : Shape).Idx)
    (h : andi (cmpi .sge x (broadcastInDim (⟨2, ![50000, 1]⟩ : Shape) ![] hb (constantI (⟨0, ![]⟩ : Shape) 32 0#32)))
              (cmpi .slt x (broadcastInDim (⟨2, ![50000, 1]⟩ : Shape) ![] hb (constantI (⟨0, ![]⟩ : Shape) 32 256#32))) i = 1#1) :
    0 ≤ (x i).toInt ∧ (x i).toInt < 256 := by
  have h' : IntOp.andi (IntOp.cmpi .sge (x i) (0#32)) (IntOp.cmpi .slt (x i) (256#32)) = 1#1 := h
  obtain ⟨h1, h2⟩ := IntOp.andi_eq_one.1 h'
  have e1 := IntOp.cmpi_sge.1 h1
  have e2 := IntOp.cmpi_slt.1 h2
  have z0 : (0#32 : BitVec 32).toInt = 0 := by decide
  have z1 : (256#32 : BitVec 32).toInt = 256 := by decide
  rw [z0] at e1
  rw [z1] at e2
  exact ⟨e1, e2⟩

/-- Under the precondition every node's type index is a valid row of the embedding table. -/
theorem st_in_range (m : (ℓ : Loc Cert.KernelIdeal.nD Cert.KernelIdeal.τ Cert.KernelIdeal.sig) → Buf (Elt Ideal) ℓ)
    (h : Cert.Pre_KernelIdeal m) (c : Dev Cert.KernelIdeal.nD) :
    StInRange (m ((c.tc : Thread Cert.KernelIdeal.nD Cert.KernelIdeal.τ).loc Cert.KernelIdeal.main_arg3)) := by
  have h0 := congrFun (h c) (fun a => a.elim0)
  dsimp only [Cert.Pre_finite_inputs.fn, Cert.Pre_finite_inputs.fn_part1, Cert.Pre_finite_inputs.fn_part2,
    Cert.Pre_finite_inputs.fn_part3] at h0
  obtain ⟨-, h1⟩ := IntOp.andi_eq_one.1 h0
  intro i
  -- the rank-0 shape has a single index, so the reduction over both axes collects every entry
  haveI : Subsingleton (⟨0, ![]⟩ : Shape).Idx := ⟨fun a b => funext fun d => d.elim0⟩
  have h2 := Host.reduce_andi_all _ _ _ _ _ h1 i
  exact st_entry_bounds _ _ i h2

end Cert.Stages
-- ==== Proof.lean ====
/-
  The proof of `Cert.Claim`: a two-layer GraphSAGE network with a mean pool and a linear head, computed by a kernel
  program of four pallas_calls among host operations, against the plain jnp reference.

  What differs between the two programs is confined to the four regions. The embedding region multiplies a one-hot
  matrix of the node types by the embedding table where the reference reads the table's rows by index: the same rows
  whenever every node type is a valid row, 0 ≤ st < 256, which the precondition states. The two SAGE regions and the
  output region compute relu (mean · WlT + bl + h · WrT) and p · WT + b block by block with the matrix unit where the
  reference uses whole-array dot products: the same sums over the extended reals, whatever the tiling. Everything
  between the regions — the gather of the neighbours' features along the edges, the scatter-adds, the division by the
  neighbour counts, the graph-wise mean — is the same host operation on both sides and is carried as one function.
  So the kernel's result buffer, read back through its seven segments, holds the reference's result term of the
  arguments, and two memories that agree on the arguments give equal results.

  The frames of the two kernel programs and the reference's run are the generated ones; the ideal pass recorded no
  rewrite, so `preserves` has nothing to state.
-/
import proofs.«401539_j71674414235947_1_alg».proof.Defs
import proofs.«401539_j71674414235947_1_alg».proof.Proof.Gen.Kernel
import proofs.«401539_j71674414235947_1_alg».proof.Proof.Gen.Kernel.Skeleton
import proofs.«401539_j71674414235947_1_alg».proof.Proof.Gen.Kernel.Launch
import proofs.«401539_j71674414235947_1_alg».proof.Proof.Gen.Kernel.Points
import proofs.«401539_j71674414235947_1_alg».proof.Proof.Gen.Kernel.Frame
import proofs.«401539_j71674414235947_1_alg».proof.Proof.Gen.KernelIdeal
import proofs.«401539_j71674414235947_1_alg».proof.Proof.Gen.KernelIdeal.Skeleton
import proofs.«401539_j71674414235947_1_alg».proof.Proof.Gen.KernelIdeal.Launch
import proofs.«401539_j71674414235947_1_alg».proof.Proof.Gen.KernelIdeal.Points
import proofs.«401539_j71674414235947_1_alg».proof.Proof.Gen.KernelIdeal.Frame
import proofs.«401539_j71674414235947_1_alg».proof.Proof.Gen.ReferenceIdeal
import proofs.«401539_j71674414235947_1_alg».proof.Proof.Gen.ReferenceIdeal.Run
import proofs.«401539_j71674414235947_1_alg».proof.Proof.Gen.ReferenceIdeal.Read
import proofs.«401539_j71674414235947_1_alg».proof.Proof.Gen.Pre_finite_inputs
import proofs.«401539_j71674414235947_1_alg».proof.Proof.ValueRun
import proofs.«401539_j71674414235947_1_alg».proof.Proof.Fold
import proofs.«401539_j71674414235947_1_alg».proof.Proof.PreRange
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, with every node type a valid table row, both programs end with the
    reference's result term of the arguments in their result buffers. -/
theorem algebraic : Cert.algebraic_KernelIdeal_ReferenceIdeal := by
  intro m ρ m' ρ' hpre hagree
  refine ⟨fun c => Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Fold.result_eq m ρ c (Cert.Stages.st_in_range m hpre c)), (h c).2⟩)
      (Cert.KernelIdeal.ValueRun.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v85_eq, e0, e1, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
